-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192 : Shape := ⟨1, ![8192]⟩
abbrev S768x1024 : Shape := ⟨2, ![768, 1024]⟩
abbrev S1024 : Shape := ⟨1, ![1024]⟩
abbrev S2048 : Shape := ⟨1, ![2048]⟩
abbrev S1 : Shape := ⟨1, ![1]⟩
abbrev S_ : Shape := ⟨0, ![]⟩

class Facts : Prop where
  bcast_S_S768x1024 : S_.BroadcastsInDim S768x1024 (![] : Fin 0 → Fin S768x1024.rank)
  reducesTo_S768x1024_S_d0_1 : S768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg0 : IVec S8192x32 32) (main_arg1 : IVec S8192x32 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 768#32
  let main_v19 : IVec S8192x32 32 := broadcastInDim S8192x32 ![] bcast_S_S8192x32 main_c_6
  let main_v20 : IVec S8192x32 1 := cmpi .slt main_arg0 main_v19
  let main_c_7 : IVec S_ 1 := constantI S_ 1 1#1
  let main_v21 : IVec S_ 1 := (fun x v => Host.reduce IntOp.andi x v reducesTo_S8192x32_S_d0_1 h_S_) main_v20 main_c_7
  let main_v22 : IVec S_ 1 := andi main_v18 main_v21
  let main_c_8 : IVec S_ 32 := constantI S_ 32 768#32
  let main_v23 : IVec S8192x32 32 := broadcastInDim S8192x32 ![] bcast_S_S8192x32 main_c_8
  let main_v24 : IVec S8192x32 1 := cmpi .slt main_arg1 main_v23
  let main_c_9 : IVec S_ 1 := constantI S_ 1 1#1
  let main_v25 : IVec S_ 1 := (fun x v => Host.reduce IntOp.andi x v reducesTo_S8192x32_S_d0_1 h_S_) main_v24 main_c_9
  let main_v26 : IVec S_ 1 := andi main_v22 main_v25
  main_v26

def fn {F : FTy → Type} [FloatOps F] (main_arg0 : IVec S8192x32 32) (main_arg1 : IVec S8192x32 32) (main_arg2 : IVec S8192 32) (main_arg3 : FVec F S768x1024 .f32) (main_arg4 : FVec F S1024 .f32) (main_arg5 : FVec F S2048 .f32) (main_arg6 : FVec F S1 .f32) : IVec S_ 1 :=
  let main_v0 : FVec F S768x1024 .f32 := Host.absf main_arg3
  let main_cst : FVec F S_ .f32 := constant S_ .f32 0x7F800000#32
  let main_v1 : FVec F S768x1024 .f32 := broadcastInDim S768x1024 ![] bcast_S_S768x1024 main_cst
  let main_v2 : IVec S768x1024 1 := cmpf .olt main_v0 main_v1
  let main_c : IVec S_ 1 := constantI S_ 1 1#1
  let main_v3 : IVec S_ 1 := (fun x v => Host.reduce IntOp.andi x v reducesTo_S768x1024_S_d0_1 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048 .f32 := Host.absf main_arg5
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_v13 main_v16
-- ==== Kernel.lean ====
abbrev S8192x32 : Shape := ⟨2, ![8192, 32]⟩
abbrev S8192 : Shape := ⟨1, ![8192]⟩
abbrev S768x1024 : Shape := ⟨2, ![768, 1024]⟩
abbrev S1024 : Shape := ⟨1, ![1024]⟩
abbrev S2048 : Shape := ⟨1, ![2048]⟩
abbrev S1 : Shape := ⟨1, ![1]⟩
abbrev S1x1024 : Shape := ⟨2, ![1, 1024]⟩
abbrev S512x32 : Shape := ⟨2, ![512, 32]⟩
abbrev S512 : Shape := ⟨1, ![512]⟩
abbrev S1024x768 : Shape := ⟨2, ![1024, 768]⟩
abbrev S1x768 : Shape := ⟨2, ![1, 768]⟩
abbrev S512x1 : Shape := ⟨2, ![512, 1]⟩
abbrev S512x768 : Shape := ⟨2, ![512, 768]⟩
abbrev S1024x1024 : Shape := ⟨2, ![1024, 1024]⟩
abbrev S512x1024 : Shape := ⟨2, ![512, 1024]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S8192x32, .i32⟩
  | .hbm, ⟨1, _⟩ => ⟨S8192x32, .i32⟩
  | .hbm, ⟨2, _⟩ => ⟨S8192, .i32⟩
  | .hbm, ⟨3, _⟩ => ⟨S768x1024, .f32⟩
  | .hbm, ⟨4, _⟩ => ⟨S1024, .f32⟩
  | .hbm, ⟨5, _⟩ => ⟨S2048, .f32⟩
  | .hbm, ⟨6, _⟩ => ⟨S1, .f32⟩
  | .hbm, ⟨7, _⟩ => ⟨S768x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .local _ .vmem, ⟨0, _⟩ => ⟨S512x32, .i32⟩
  | .local _ .vmem, ⟨1, _⟩ => ⟨S512x32, .i32⟩
  | .local _ .vmem, ⟨2, _⟩ => ⟨S512x32, .i32⟩
  | .local _ .vmem, ⟨3, _⟩ => ⟨S512x32, .i32⟩
  | .local _ .vmem, ⟨4, _⟩ => ⟨S512, .i32⟩
  | .local _ .vmem, ⟨5, _⟩ => ⟨S512, .i32⟩
  | .local _ .vmem, ⟨6, _⟩ => ⟨S768x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512, .f32⟩
  | .local _ .vmem, ⟨11, _⟩ => ⟨S512, .f32⟩
  | .local _ .vmem, ⟨12, _⟩ => ⟨S1024x768, .bf16⟩
  | _, _ => ⟨S8192x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  slices_S2048_S1024_0 : S2048.Slices ![0] S1024
  slices_S2048_S1024_1024 : S2048.Slices ![1024] S1024
  iota_S1x768_d1_w32 : S1x768.Iotas .tc 32 [1]
  inb_S512x32_S512x1_0_0 : ∀ a, (![0, 0] : Fin 2 → Nat) a + S512x1.size a ≤ S512x32.size a
  h_S512x1 : 0 < S512x1.numel
  broadcasts_S512x1_S512x768 : S512x1.Broadcasts S512x768
  broadcasts_S1x768_S512x768 : S1x768.Broadcasts S512x768
  natLt_1_32 : 1 < 32
  inb_S512x32_S512x1_0_1 : ∀ a, (![0, 1] : Fin 2 → Nat) a + S512x1.size a ≤ S512x32.size a
  inb_S512x32_S512x1_0_2 : ∀ a, (![0, 2] : Fin 2 → Nat) a + S512x1.size a ≤ S512x32.size a
  inb_S512x32_S512x1_0_3 : ∀ a, (![0, 3] : Fin 2 → Nat) a + S512x1.size a ≤ S512x32.size a
  inb_S512x32_S512x1_0_4 : ∀ a, (![0, 4] : Fin 2 → Nat) a + S512x1.size a ≤ S512x32.size a
  inb_S512x32_S512x1_0_5 : ∀ a, (![0, 5] : Fin 2 → Nat) a + S512x1.size a ≤ S512x32.size a
  inb_S512x32_S512x1_0_6 : ∀ a, (![0, 6] : Fin 2 → Nat) a + S512x1.size a ≤ S512x32.size a
  inb_S512x32_S512x1_0_7 : ∀ a, (![0, 7] : Fin 2 → Nat) a + S512x1.size a ≤ S512x32.size a
  inb_S1024x768_S512x768_0_0 : ∀ a, (![0, 0] : Fin 2 → Nat) a + S512x768.size a ≤ S1024x768.size a
  h_S512x768 : 0 < S512x768.numel
  shapeCasts_S512x768_S512x768 : S512x768.ShapeCasts S512x768
  packedbf16_S1024x768_S512x768_0_0 : (Rect.unit (s := S1024x768) ![0, 0] S512x768.size inb_S1024x768_S512x768_0_0).PackedRows (EltTy.packing .bf16)
  inb_S512x32_S512x1_0_8 : ∀ a, (![0, 8] : Fin 2 → Nat) a + S512x1.size a ≤ S512x32.size a
  inb_S512x32_S512x1_0_9 : ∀ a, (![0, 9] : Fin 2 → Nat) a + S512x1.size a ≤ S512x32.size a
  inb_S512x32_S512x1_0_10 : ∀ a, (![0, 10] : Fin 2 → Nat) a + S512x1.size a ≤ S512x32.size a
  inb_S512x32_S512x1_0_11 : ∀ a, (![0, 11] : Fin 2 → Nat) a + S512x1.size a ≤ S512x32.size a
  inb_S512x32_S512x1_0_12 : ∀ a, (![0, 12] : Fin 2 → Nat) a + S512x1.size a ≤ S512x32.size a
  inb_S512x32_S512x1_0_13 : ∀ a, (![0, 13] : Fin 2 → Nat) a + S512x1.size a ≤ S512x32.size a
  inb_S512x32_S512x1_0_14 : ∀ a, (![0, 14] : Fin 2 → Nat) a + S512x1.size a ≤ S512x32.size a
  inb_S512x32_S512x1_0_15 : ∀ a, (![0, 15] : Fin 2 → Nat) a + S512x1.size a ≤ S512x32.size a
  inb_S512x32_S512x1_0_16 : ∀ a, (![0, 16] : Fin 2 → Nat) a + S512x1.size a ≤ S512x32.size a
  inb_S512x32_S512x1_0_17 : ∀ a, (![0, 17] : Fin 2 → Nat) a + S512x1.size a ≤ S512x32.size a
  inb_S512x32_S512x1_0_18 : ∀ a, (![0, 18] : Fin 2 → Nat) a + S512x1.size a ≤ S512x32.size a
  inb_S512x32_S512x1_0_19 : ∀ a, (![0, 19] : Fin 2 → Nat) a + S512x1.size a ≤ S512x32.size a
  inb_S512x32_S512x1_0_20 : ∀ a, (![0, 20] : Fin 2 → Nat) a + S512x1.size a ≤ S512x32.size a
  inb_S512x32_S512x1_0_21 : ∀ a, (![0, 21] : Fin 2 → Nat) a + S512x1.size a ≤ S512x32.size a
  inb_S512x32_S512x1_0_22 : ∀ a, (![0, 22] : Fin 2 → Nat) a + S512x1.size a ≤ S512x32.size a
  inb_S512x32_S512x1_0_23 : ∀ a, (![0, 23] : Fin 2 → Nat) a + S512x1.size a ≤ S512x32.size a
  inb_S512x32_S512x1_0_24 : ∀ a, (![0, 24] : Fin 2 → Nat) a + S512x1.size a ≤ S512x32.size a
  inb_S512x32_S512x1_0_25 : ∀ a, (![0, 25] : Fin 2 → Nat) a + S512x1.size a ≤ S512x32.size a
  inb_S512x32_S512x1_0_26 : ∀ a, (![0, 26] : Fin 2 → Nat) a + S512x1.size a ≤ S512x32.size a
  inb_S512x32_S512x1_0_27 : ∀ a, (![0, 27] : Fin 2 → Nat) a + S512x1.size a ≤ S512x32.size a
  inb_S512x32_S512x1_0_28 : ∀ a, (![0, 28] : Fin 2 → Nat) a + S512x1.size a ≤ S512x32.size a
  inb_S512x32_S512x1_0_29 : ∀ a, (![0, 29] : Fin 2 → Nat) a + S512x1.size a ≤ S512x32.size a
  inb_S512x32_S512x1_0_30 : ∀ a, (![0, 30] : Fin 2 → Nat) a + S512x1.size a ≤ S512x32.size a
  inb_S512x32_S512x1_0_31 : ∀ a, (![0, 31] : Fin 2 → Nat) a + S512x1.size a ≤ S512x32.size a
  inb_S1024x768_S512x768_512_0 : ∀ a, (![512, 0] : Fin 2 → Nat) a + S512x768.size a ≤ S1024x768.size a
  packedbf16_S1024x768_S512x768_512_0 : (Rect.unit (s := S1024x768) ![512, 0] S512x768.size inb_S1024x768_S512x768_512_0).PackedRows (EltTy.packing .bf16)
  inb_S1024x768_S1024x768_0_0 : ∀ a, (![0, 0] : Fin 2 → Nat) a + S1024x768.size a ≤ S1024x768.size a
  h_S1024x768 : 0 < S1024x768.numel
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S512x1024 : S1024x1024.Slices ![0, 0] S512x1024
  slices_S1024x1024_o512_0_S512x1024 : S1024x1024.Slices ![512, 0] S512x1024
  broadcasts_S1x1024_S512x1024 : S1x1024.Broadcasts S512x1024
  reduces_S512x1024_S512 : S512x1024.Reduces [1] S512
  inb_S512_S512_0 : ∀ a, (![0] : Fin 1 → Nat) a + S512.size a ≤ S512.size a
  h_S512 : 0 < S512.numel
  shapeCasts_S1_S_ : S1.ShapeCasts S_
  bcast_S_S8192 : S_.BroadcastsInDim S8192 (![] : Fin 0 → Fin S8192.rank)
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S8192x32.size a
  hwx0_0 : ∀ i : grid0.Coords, EltTy.bits .i32 = 32 ∨ (Rect.block (s := S8192x32) S512x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .i32 = 32 ∨ (Rect.block (s := S8192x32) S512x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .i32 = 32 ∨ (Rect.block (s := S8192) S512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S8192.size a
  hwx0_7 : ∀ i : grid0.Coords, EltTy.bits .f32 = 32 ∨ (Rect.block (s := S8192) S512.size (cc0_transform_7 i) (hinb0_7 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192 : Shape := ⟨1, ![8192]⟩
abbrev S768x1024 : Shape := ⟨2, ![768, 1024]⟩
abbrev S1024 : Shape := ⟨1, ![1024]⟩
abbrev S2048 : Shape := ⟨1, ![2048]⟩
abbrev S1 : Shape := ⟨1, ![1]⟩
abbrev S_ : Shape := ⟨0, ![]⟩
abbrev S8192x32x1 : Shape := ⟨3, ![8192, 32, 1]⟩
abbrev S1x1x1 : Shape := ⟨3, ![1, 1, 1]⟩
abbrev S8192x32x1024 : Shape := ⟨3, ![8192, 32, 1024]⟩
abbrev S1x1024 : Shape := ⟨2, ![1, 1024]⟩
abbrev S8192x1024 : Shape := ⟨2, ![8192, 1024]⟩
abbrev S8192x1 : Shape := ⟨2, ![8192, 1]⟩
abbrev S8192x2048 : Shape := ⟨2, ![8192, 2048]⟩
abbrev S1x2048 : Shape := ⟨2, ![1, 2048]⟩

abbrev nBuf : Space → Nat
  | .hbm => 130
  | .vmem => 0
  | .smem => 0
  | _ => 0

abbrev hbmTy0_0 (i : Nat) : BufTy := match i % 128 with
  | 0 => ⟨S8192x32, .i32⟩
  | 1 => ⟨S8192x32, .i32⟩
  | 2 => ⟨S8192, .i32⟩
  | 3 => ⟨S768x1024, .f32⟩
  | 4 => ⟨S1024, .f32⟩
  | 5 => ⟨S2048, .f32⟩
  | 6 => ⟨S1, .f32⟩
  | 7 => ⟨S_, .i32⟩
  | 8 => ⟨S8192x32, .i32⟩
  | 9 => ⟨S8192x32, .i1⟩
  | 10 => ⟨S_, .i32⟩
  | 11 => ⟨S_, .i32⟩
  | 12 => ⟨S8192x32, .i32⟩
  | 13 => ⟨S8192x32, .i32⟩
  | 14 => ⟨S_, .i32⟩
  | 15 => ⟨S8192x32, .i32⟩
  | 16 => ⟨S8192x32, .i1⟩
  | 17 => ⟨S_, .i32⟩
  | 18 => ⟨S8192x32, .i32⟩
  | 19 => ⟨S8192x32, .i32⟩
  | 20 => ⟨S8192x32, .i32⟩
  | 21 => ⟨S8192x32x1, .i32⟩
  | 22 => ⟨S1, .i32⟩
  | 23 => ⟨S_, .i32⟩
  | 24 => ⟨S8192x32x1, .i32⟩
  | 25 => ⟨S8192x32x1, .i1⟩
  | 26 => ⟨S1x1x1, .i32⟩
  | 27 => ⟨S8192x32x1, .i32⟩
  | 28 => ⟨S8192x32x1, .i1⟩
  | 29 => ⟨S8192x32x1, .i1⟩
  | 30 => ⟨S_, .i1⟩
  | 31 => ⟨S8192x32, .i1⟩
  | 32 => ⟨S8192x32x1024, .f32⟩
  | 33 => ⟨S8192x32x1024, .i1⟩
  | 34 => ⟨S_, .f32⟩
  | 35 => ⟨S8192x32x1024, .f32⟩
  | 36 => ⟨S8192x32x1024, .f32⟩
  | 37 => ⟨S8192x32x1, .i1⟩
  | 38 => ⟨S8192x32x1, .f32⟩
  | 39 => ⟨S8192x32x1024, .f32⟩
  | 40 => ⟨S8192x32x1024, .f32⟩
  | 41 => ⟨S1x1024, .f32⟩
  | 42 => ⟨S_, .f32⟩
  | 43 => ⟨S8192x1024, .f32⟩
  | 44 => ⟨S8192x1024, .f32⟩
  | 45 => ⟨S8192x1024, .f32⟩
  | 46 => ⟨S_, .f32⟩
  | 47 => ⟨S_, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S_, .i32⟩
  | 56 => ⟨S8192x32, .i32⟩
  | 57 => ⟨S8192x32, .i1⟩
  | 58 => ⟨S_, .i32⟩
  | 59 => ⟨S_, .i32⟩
  | 60 => ⟨S8192x32, .i32⟩
  | 61 => ⟨S8192x32, .i32⟩
  | 62 => ⟨S_, .i32⟩
  | 63 => ⟨S8192x32, .i32⟩
  | 64 => ⟨S8192x32, .i1⟩
  | 65 => ⟨S_, .i32⟩
  | 66 => ⟨S8192x32, .i32⟩
  | 67 => ⟨S8192x32, .i32⟩
  | 68 => ⟨S8192x32, .i32⟩
  | 69 => ⟨S8192x32x1, .i32⟩
  | 70 => ⟨S1, .i32⟩
  | 71 => ⟨S_, .i32⟩
  | 72 => ⟨S8192x32x1, .i32⟩
  | 73 => ⟨S8192x32x1, .i1⟩
  | 74 => ⟨S1x1x1, .i32⟩
  | 75 => ⟨S8192x32x1, .i32⟩
  | 76 => ⟨S8192x32x1, .i1⟩
  | 77 => ⟨S8192x32x1, .i1⟩
  | 78 => ⟨S_, .i1⟩
  | 79 => ⟨S8192x32, .i1⟩
  | 80 => ⟨S8192x32x1024, .f32⟩
  | 81 => ⟨S8192x32x1024, .i1⟩
  | 82 => ⟨S_, .f32⟩
  | 83 => ⟨S8192x32x1024, .f32⟩
  | 84 => ⟨S8192x32x1024, .f32⟩
  | 85 => ⟨S8192x32x1, .i1⟩
  | 86 => ⟨S8192x32x1, .f32⟩
  | 87 => ⟨S8192x32x1024, .f32⟩
  | 88 => ⟨S8192x32x1024, .f32⟩
  | 89 => ⟨S1x1024, .f32⟩
  | 90 => ⟨S_, .f32⟩
  | 91 => ⟨S8192x1024, .f32⟩
  | 92 => ⟨S8192x1024, .f32⟩
  | 93 => ⟨S8192x1024, .f32⟩
  | 94 => ⟨S_, .f32⟩
  | 95 => ⟨S_, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x2048, .f32⟩
  | 122 => ⟨S1x2048, .f32⟩
  | 123 => ⟨S8192x2048, .f32⟩
  | 124 => ⟨S8192x2048, .f32⟩
  | 125 => ⟨S_, .f32⟩
  | 126 => ⟨S8192, .f32⟩
  | 127 => ⟨S_, .f32⟩
  | _ => ⟨S8192x32, .i32⟩

abbrev hbmTy0_1 (i : Nat) : BufTy := match i % 128 with
  | 0 => ⟨S8192, .f32⟩
  | 1 => ⟨S8192, .f32⟩
  | _ => ⟨S8192x32, .i32⟩

abbrev hbmTy (i : Nat) : BufTy := match i / 128 with
  | 0 => hbmTy0_0 i
  | 1 => hbmTy0_1 i
  | _ => ⟨S8192x32, .i32⟩

abbrev bufTy : (tb : Table) → Fin (tcTables nBuf tb) → BufTy
  | .hbm, ⟨i, _⟩ => hbmTy i
  | _, _ => ⟨S8192x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v12 : Ref sig .tc := ⟨.hbm, 53, rfl⟩
abbrev main_v13 : Ref sig .tc := ⟨.hbm, 54, rfl⟩
abbrev main_c_3 : Ref sig .tc := ⟨.hbm, 55, rfl⟩
abbrev main_v14 : Ref sig .tc := ⟨.hbm, 56, rfl⟩
abbrev main_v15 : Ref sig .tc := ⟨.hbm, 57, rfl⟩
abbrev main_c_4 : Ref sig .tc := ⟨.hbm, 58, rfl⟩
abbrev main_call3_v0 : Ref sig .tc := ⟨.hbm, 59, rfl⟩
abbrev main_call3_v1 : Ref sig .tc := ⟨.hbm, 60, rfl⟩
abbrev main_v16 : Ref sig .tc := ⟨.hbm, 61, rfl⟩
abbrev main_call4_c : Ref sig .tc := ⟨.hbm, 62, rfl⟩
abbrev main_call4_v0 : Ref sig .tc := ⟨.hbm, 63, rfl⟩
abbrev main_call4_v1 : Ref sig .tc := ⟨.hbm, 64, rfl⟩
abbrev main_call4_c_0 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_c_1 : Ref sig .tc := ⟨.hbm, 70, rfl⟩
abbrev main_call4_c_2 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_3 : Ref sig .tc := ⟨.hbm, 78, rfl⟩
abbrev main_call4_v12 : Ref sig .tc := ⟨.hbm, 79, rfl⟩
abbrev main_call4_v13 : Ref sig .tc := ⟨.hbm, 80, rfl⟩
abbrev main_call4_v14 : Ref sig .tc := ⟨.hbm, 81, rfl⟩
abbrev main_call4_cst : Ref sig .tc := ⟨.hbm, 82, rfl⟩
abbrev main_call4_v15 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_cst_5 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_cst_6 : Ref sig .tc := ⟨.hbm, 94, rfl⟩
abbrev main_cst_7 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_cst_8 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_9 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_cst_10 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S1_S1x1x1_2 : S1.BroadcastsInDim S1x1x1 (![2] : Fin 1 → Fin S1x1x1.rank)
  bcast_S1x1x1_S8192x32x1_0_1_2 : S1x1x1.BroadcastsInDim S8192x32x1 (![0, 1, 2] : Fin 3 → Fin S8192x32x1.rank)
  reducesTo_S8192x32x1_S8192x32_d2 : S8192x32x1.ReducesTo [2] S8192x32
  h_S_ : 0 < S_.numel
  bcast_S8192x32_S8192x32x1024_0_1 : S8192x32.BroadcastsInDim S8192x32x1024 (![0, 1] : Fin 2 → Fin S8192x32x1024.rank)
  bcast_S_S8192x32x1024 : S_.BroadcastsInDim S8192x32x1024 (![] : Fin 0 → Fin S8192x32x1024.rank)
  bcast_S8192x32x1_S8192x32x1024_0_1_2 : S8192x32x1.BroadcastsInDim S8192x32x1024 (![0, 1, 2] : Fin 3 → Fin S8192x32x1024.rank)
  bcast_S1024_S1x1024_1 : S1024.BroadcastsInDim S1x1024 (![1] : Fin 1 → Fin S1x1024.rank)
  reducesTo_S8192x32x1024_S8192x1024_d1 : S8192x32x1024.ReducesTo [1] S8192x1024
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  concatenates_S8192x1024_S8192x1024_S8192x2048_d1 : Shape.Concatenates [S8192x1024, S8192x1024] S8192x2048 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  shapeCasts_S1_S_ : S1.ShapeCasts S_
  bcast_S_S8192 : S_.BroadcastsInDim S8192 (![] : Fin 0 → Fin S8192.rank)
  gather_S768x1024_S8192x32x1_S8192x32x1024_2_0_n_n_0_2_11024_wf : GatherDims.WF S768x1024 S8192x32x1 S8192x32x1024 [2] [0] [] [0] [] 2 ![1, 1024]

variable [Facts₀]

def gather_S768x1024_S8192x32x1_S8192x32x1024_2_0_n_n_0_2_11024 : GatherDims S768x1024 S8192x32x1 S8192x32x1024 where
  offsetDims := [2]
  collapsedSliceDims := [0]
  operandBatchingDims := []
  startIndicesBatchingDims := []
  startIndexMap := [0]
  indexVectorDim := 2
  sliceSizes := ![1, 1024]
  wf := gather_S768x1024_S8192x32x1_S8192x32x1024_2_0_n_n_0_2_11024_wf

class Facts : Prop extends Facts₀ where

variable [Facts]
-- ==== Proof.Spec.lean ====
/-
  The network both programs compute, as plain functions on the extended reals.

  A sample has two rows of 32 feature words (white, black), a side-to-move word, and shares a weight table
  W (768 columns' rows of 1024 hidden units), a bias (1024), an output weight (2048 = 1024 "us" + 1024 "them") and an
  output bias.  A feature word names a table row when, read unsigned, it is below 768; any other word (the negative
  "empty slot" words among them) names none and contributes nothing.

  The hidden accumulator of a row is written here in two arrangements:
    * by COUNTS: first count, for every table row f, how many of the 32 words name f, then take the counts' product with
      the table and add the bias (`accCount`);
    * by PICKS: the bias plus, word by word, the table row the word names, or zero (`accPick`).
  The activation squares the accumulator clipped to [0, 1] (`sq01`), so it is always a real number in [0, 1].
  The output is written in two arrangements too:
    * `blend`: four dot products (white or black activation with the "us" or "them" half of the output weight), the two
      sums for each side to move blended by m and 1 - m;
    * `blendCat`: blend the activations first, hidden unit by hidden unit, into the "us" and "them" vectors, lay them
      end to end and take ONE dot product with the whole output weight.
  `Gk` is counts + `blend`, `Gr` is picks + `blendCat`; that the two agree whenever the table and the output weight
  hold real numbers is proved in another module.
-/
import Idealize.ShloMosaic.PureOps.Ideal.Laws

noncomputable section

namespace Cert.Nnue

open scoped BigOperators

/-- The table row a feature word names: the word read unsigned, modulo the table's height. -/
def col (x : BitVec 32) : Fin 768 := ⟨x.toNat % 768, Nat.mod_lt _ (by norm_num)⟩

/-- One when the feature word is the number of table row `f`, else zero. -/
def hot (x : BitVec 32) (f : Fin 768) : EReal := if x = BitVec.ofNat 32 f.val then 1 else 0

/-- How many of a row's 32 feature words name table row `f`. -/
def count (row : Fin 32 → BitVec 32) (f : Fin 768) : EReal := ∑ k, hot (row k) f

/-- The hidden accumulator by counts: the counts' product with the table, plus the bias. -/
def accCount (row : Fin 32 → BitVec 32) (W : Fin 768 → Fin 1024 → EReal) (bias : Fin 1024 → EReal) (h : Fin 1024) : EReal :=
  (∑ f, count row f * W f h) + bias h

/-- The table entry a feature word contributes to hidden unit `h`: the named row's, or zero when it names none. -/
def pick (W : Fin 768 → Fin 1024 → EReal) (x : BitVec 32) (h : Fin 1024) : EReal :=
  if x.toNat < 768 then W (col x) h else 0

/-- The hidden accumulator by picks: the bias plus each word's contribution. -/
def accPick (row : Fin 32 → BitVec 32) (W : Fin 768 → Fin 1024 → EReal) (bias : Fin 1024 → EReal) (h : Fin 1024) : EReal :=
  bias h + ∑ k, pick W (row k) h

/-- The activation: clip to [0, 1], then square. -/
def sq01 (z : EReal) : EReal := min 1 (max 0 z) * min 1 (max 0 z)

/-- The side to move as a number: the word read as a signed integer. -/
def side (s : BitVec 32) : EReal := ((s.toInt : ℝ) : EReal)

/-- The "us" half and the "them" half of the output weight. -/
def lo (ow : Fin 2048 → EReal) (h : Fin 1024) : EReal := ow ⟨h.val, by omega⟩
def hi (ow : Fin 2048 → EReal) (h : Fin 1024) : EReal := ow ⟨h.val + 1024, by omega⟩

/-- A sample's row in the upper (white) half, and in the lower (black) half, of a scratch of 1024 rows. -/
def topRow (r : Fin 512) : Fin 1024 := ⟨r.val, by have := r.isLt; omega⟩
def botRow (r : Fin 512) : Fin 1024 := ⟨r.val + 512, by have := r.isLt; omega⟩

/-- Four dot products, then the blend by the side to move. -/
def blend (wa ba : Fin 1024 → EReal) (m : EReal) (owU owT : Fin 1024 → EReal) : EReal :=
  (1 - m) * ((∑ h, wa h * owU h) + (∑ h, ba h * owT h)) + m * ((∑ h, ba h * owU h) + (∑ h, wa h * owT h))

/-- Two vectors of 1024 laid end to end. -/
def cat (u v : Fin 1024 → EReal) (j : Fin 2048) : EReal :=
  if h : j.val < 1024 then u ⟨j.val, h⟩ else v ⟨j.val - 1024, by omega⟩

/-- The blend first, hidden unit by hidden unit, then one dot product of length 2048. -/
def blendCat (wa ba : Fin 1024 → EReal) (m : EReal) (ow : Fin 2048 → EReal) : EReal :=
  ∑ j, cat (fun h => wa h * (1 - m) + ba h * m) (fun h => ba h * (1 - m) + wa h * m) j * ow j

/-- The output for one sample, arranged as counts and four dot products. -/
def Gk (wrow brow : Fin 32 → BitVec 32) (s : BitVec 32) (W : Fin 768 → Fin 1024 → EReal) (bias : Fin 1024 → EReal)
    (ow : Fin 2048 → EReal) (ob : EReal) : EReal :=
  blend (fun h => sq01 (accCount wrow W bias h)) (fun h => sq01 (accCount brow W bias h)) (side s) (lo ow) (hi ow) + ob

/-- The output for one sample, arranged as picks and one long dot product. -/
def Gr (wrow brow : Fin 32 → BitVec 32) (s : BitVec 32) (W : Fin 768 → Fin 1024 → EReal) (bias : Fin 1024 → EReal)
    (ow : Fin 2048 → EReal) (ob : EReal) : EReal :=
  blendCat (fun h => sq01 (accPick wrow W bias h)) (fun h => sq01 (accPick brow W bias h)) (side s) ow + ob

end Cert.Nnue

end
-- ==== Proof.KTail.lean ====
/-
  From the count scratch to the output block, entry by entry.

  With the scratch holding 1024 rows of counts (white samples' rows first, black samples' after), the body multiplies it
  with the weight table (a matrix product into a zero accumulator: a plain sum of products over the 768 table rows), adds
  the bias row, clips to [0, 1] and squares; the upper 512 rows are the white activations and the lower 512 the black
  ones.  Four lane sums (each a sum over the 1024 hidden units started at zero) give the dot products with the two halves
  of the output weight, and the side-to-move word, read as a signed integer, blends them.  Entry `r` of the block is
  module Spec's `blend` of rows `r` and `r + 512` of the product.
-/
import proofs.«429867_j52037823758706_3_alg».proof.Proof.Gen.KernelIdeal.Skeleton
import proofs.«429867_j52037823758706_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open scoped BigOperators
open Idealize.ShloMosaic Idealize.ShloMosaic.ValueIdx Cert.KernelIdeal Cert.KernelIdeal.Gen Cert.Nnue

/-! ## The matrix product at an entry

The product's dimension numbers contract axis 1 of the scratch with axis 0 of the table and keep the scratch's rows and the
table's columns, in that order.  So at output entry `(p, h)` and contraction position `c` the left operand is read at
`(p, c)` and the right one at `(c, h)`: one lemma per operand axis. -/

/-- The left operand's row is the output's row. -/
theorem dd_lhs_0 (j : S1024x1024.Idx) (k : dot_S1024x768_S768x1024_S1024x1024_1_0_0_1_n_n.contr.Idx) :
    (dot_S1024x768_S768x1024_S1024x1024_1_0_0_1_n_n.lhsIdx j k 0).val = (j 0).val := by
  unfold DotDims.lhsIdx
  rw [dif_neg (show ¬(0 : Fin S1024x768.rank) ∈ dot_S1024x768_S768x1024_S1024x1024_1_0_0_1_n_n.lhsBatch from List.not_mem_nil),
    dif_pos (show (0 : Fin S1024x768.rank) ∈ dot_S1024x768_S768x1024_S1024x1024_1_0_0_1_n_n.lhsNonContracting from
      List.mem_singleton.mpr rfl)]
  rfl

/-- The left operand's column is the contraction position. -/
theorem dd_lhs_1 (j : S1024x1024.Idx) (k : dot_S1024x768_S768x1024_S1024x1024_1_0_0_1_n_n.contr.Idx) :
    (dot_S1024x768_S768x1024_S1024x1024_1_0_0_1_n_n.lhsIdx j k 1).val = (k ⟨0, by decide⟩).val :=
  dot_S1024x768_S768x1024_S1024x1024_1_0_0_1_n_n.lhsIdx_val_of_single (cl := 1) rfl j k

/-- The right operand's row is the contraction position. -/
theorem dd_rhs_0 (j : S1024x1024.Idx) (k : dot_S1024x768_S768x1024_S1024x1024_1_0_0_1_n_n.contr.Idx) :
    (dot_S1024x768_S768x1024_S1024x1024_1_0_0_1_n_n.rhsIdx j k 0).val = (k ⟨0, by decide⟩).val :=
  dot_S1024x768_S768x1024_S1024x1024_1_0_0_1_n_n.rhsIdx_val_of_single (cr := 0) rfl j k

/-- The right operand's column is the output's column. -/
theorem dd_rhs_1 (j : S1024x1024.Idx) (k : dot_S1024x768_S768x1024_S1024x1024_1_0_0_1_n_n.contr.Idx) :
    (dot_S1024x768_S768x1024_S1024x1024_1_0_0_1_n_n.rhsIdx j k 1).val = (j 1).val := by
  unfold DotDims.rhsIdx
  rw [dif_neg (show ¬(1 : Fin S768x1024.rank) ∈ dot_S1024x768_S768x1024_S1024x1024_1_0_0_1_n_n.rhsBatch from List.not_mem_nil),
    dif_pos (show (1 : Fin S768x1024.rank) ∈ dot_S1024x768_S768x1024_S1024x1024_1_0_0_1_n_n.rhsNonContracting from
      List.mem_singleton.mpr rfl)]
  rfl

/-- The product of the scratch with the table at row `p` and hidden unit `h`: into a zero accumulator, so just the sum
    over the table's 768 rows of the products of the entries. -/
theorem pay27_apply (S : FVec Ideal S1024x768 .bf16) (x3 : FVec Ideal S768x1024 .bf16) (p h : Fin 1024) :
    k0_pay27 (F := Ideal) S x3 (ix2 p h) = ∑ f : Fin 768, S (ix2 p f) * x3 (ix2 f h) := by
  unfold k0_pay27
  rw [shapeCast_self]
  refine (Ideal.matmul_constant_zero_apply dot_S1024x768_S768x1024_S1024x1024_1_0_0_1_n_n none S x3 (ix2 p h)).trans ?_
  rw [← Equiv.sum_comp (contrEquiv1 dot_S1024x768_S768x1024_S1024x1024_1_0_0_1_n_n 768 rfl rfl).symm]
  refine Finset.sum_congr rfl fun c _ => ?_
  have hc := contrEquiv1_symm_val dot_S1024x768_S768x1024_S1024x1024_1_0_0_1_n_n 768 rfl rfl c
  have hl : dot_S1024x768_S768x1024_S1024x1024_1_0_0_1_n_n.lhsIdx (ix2 p h)
      ((contrEquiv1 dot_S1024x768_S768x1024_S1024x1024_1_0_0_1_n_n 768 rfl rfl).symm c) = ix2 p c := by
    funext ax; apply Fin.ext
    match ax with
    | ⟨0, _⟩ => exact dd_lhs_0 _ _
    | ⟨1, _⟩ => exact (dd_lhs_1 _ _).trans hc
  have hr : dot_S1024x768_S768x1024_S1024x1024_1_0_0_1_n_n.rhsIdx (ix2 p h)
      ((contrEquiv1 dot_S1024x768_S768x1024_S1024x1024_1_0_0_1_n_n 768 rfl rfl).symm c) = ix2 c h := by
    funext ax; apply Fin.ext
    match ax with
    | ⟨0, _⟩ => exact (dd_rhs_0 _ _).trans hc
    | ⟨1, _⟩ => exact dd_rhs_1 _ _
  rw [hl, hr]

/-! ## The bias, the activation, the lane sums -/

/-- The bias row spread over the 1024 rows: at `(p, h)` it is the bias of hidden unit `h`. -/
theorem pay28_apply (x4 : FVec Ideal S1x1024 .f32) (p h : Fin 1024) :
    k0_pay28 (F := Ideal) x4 (ix2 p h) = x4 (ix2 (0 : Fin 1) h) := by
  unfold k0_pay28
  rw [shapeCast_self]
  exact broadcastTo_1b_ab_apply x4 _ p h

/-- The word `0x3F800000` denotes the number one. -/
theorem one_f32 : Ideal.ofBits .f32 0x3F800000#32 = 1 := IdealRules.sign_bit.ideal_onePat .f32

/-- The activation as the body writes it: product plus bias, clipped below by 0 and above by 1, times itself. -/
def act (A B : FVec Ideal S1024x1024 .f32) : FVec Ideal S1024x1024 .f32 :=
  mulf
    (minimumf (broadcast S1024x1024 (Scalar.ofBits .f32 0x3F800000#32))
      (maximumf (broadcast S1024x1024 (Scalar.ofBits .f32 0x00000000#32)) (addf A B)))
    (minimumf (broadcast S1024x1024 (Scalar.ofBits .f32 0x3F800000#32))
      (maximumf (broadcast S1024x1024 (Scalar.ofBits .f32 0x00000000#32)) (addf A B)))

/-- Entry by entry it is `sq01` of the sum: every operation in it is pointwise, and the two constants are 1 and 0. -/
theorem act_apply (A B : FVec Ideal S1024x1024 .f32) (i : S1024x1024.Idx) : act A B i = sq01 (A i + B i) := by
  show min (Ideal.ofBits .f32 0x3F800000#32) (max (Ideal.ofBits .f32 0x00000000#32) (A i + B i))
      * min (Ideal.ofBits .f32 0x3F800000#32) (max (Ideal.ofBits .f32 0x00000000#32) (A i + B i)) = _
  rw [one_f32, Ideal.ofBits_zero_f32]
  rfl

/-- One lane sum of the body: the 512 rows of `V` from row `o` on, each multiplied entry by entry with the weight row `w`
    and summed over the 1024 hidden units, from zero. -/
def lane (o : Nat) (hs : S1024x1024.Slices ![o, 0] S512x1024) (V : FVec Ideal S1024x1024 .f32)
    (w : FVec Ideal S1x1024 .f32) : FVec Ideal S512 .f32 :=
  multiReduction (F := Ideal) .add [1] S512
    (mulf (extractStridedSlice S512x1024 ![o, 0] V hs)
      (broadcastTo S512x1024 (shapeCast S1x1024 w shapeCasts_S1x1024_S1x1024) broadcasts_S1x1024_S512x1024))
    0x00000000#32 reduces_S512x1024_S512 (.inl rfl) rfl

/-- At entry `r` it is the dot product of row `k = o + r` of `V` with the weight row: the reduction over the one axis is
    the sum over that axis's coordinate, the slice shifts the row by `o`, and the broadcast reads the weight's one row. -/
theorem lane_apply (o : Nat) (hs : S1024x1024.Slices ![o, 0] S512x1024) (V : FVec Ideal S1024x1024 .f32)
    (w : FVec Ideal S1x1024 .f32) (r : Fin 512) (k : Fin 1024) (hk : k.val = o + r.val) :
    lane o hs V w (ix1 r) = ∑ h : Fin 1024, V (ix2 k h) * w (ix2 (0 : Fin 1) h) := by
  unfold lane
  refine (Ideal.multiReduction_add_single _ 0x00000000#32 reduces_S512x1024_S512 (.inl rfl) rfl (ix1 r)).trans ?_
  refine Finset.sum_congr rfl fun (h : Fin 1024) _ => ?_
  have hi : reduces_S512x1024_S512.lift (ix1 r) h = ix2 r h := by
    funext ax; apply Fin.ext
    match ax with
    | ⟨0, _⟩ => rfl
    | ⟨1, _⟩ => rfl
  rw [hi, mulf_apply, slice2_axis0_apply o V hs r h k hk, shapeCast_self, broadcastTo_1b_ab_apply]

/-! ## The block's entry -/

/-- The body's arithmetic after the scratch is complete, at entry `r` of the output block: `S` the scratch's contents,
    `x3` the table, `x4` the bias row, `x5` and `x6` the "us" and "them" rows of the output weight, `x2` the side words. -/
theorem block_tail (S : Vec Ideal S1024x768 .bf16) (x3 : Vec Ideal S768x1024 .bf16) (x4 x5 x6 : Vec Ideal S1x1024 .f32)
    (x2 : Vec Ideal S512 .i32) (r : Fin 512) :
    k0_pay29 (F := Ideal) (k0_pay27 S x3) (k0_pay28 x4) x5 x6 x2 (ix1 r)
      = blend
          (fun h => sq01 ((∑ f : Fin 768, S (ix2 (topRow r) f) * x3 (ix2 f h)) + x4 (ix2 (0 : Fin 1) h)))
          (fun h => sq01 ((∑ f : Fin 768, S (ix2 (botRow r) f) * x3 (ix2 f h)) + x4 (ix2 (0 : Fin 1) h)))
          (side (x2 (ix1 r))) (fun h => x5 (ix2 (0 : Fin 1) h)) (fun h => x6 (ix2 (0 : Fin 1) h)) := by
  -- the body's last value at entry `r`, with the activation and the four lane sums named: the blend's shape already
  have e : k0_pay29 (F := Ideal) (k0_pay27 S x3) (k0_pay28 x4) x5 x6 x2 (ix1 r)
      = (Ideal.ofBits .f32 0x3F800000#32 - side (x2 (ix1 r)))
          * (lane 0 slices_S1024x1024_o0_0_S512x1024 (act (k0_pay27 S x3) (k0_pay28 x4)) x5 (ix1 r)
            + lane 512 slices_S1024x1024_o512_0_S512x1024 (act (k0_pay27 S x3) (k0_pay28 x4)) x6 (ix1 r))
        + side (x2 (ix1 r))
          * (lane 512 slices_S1024x1024_o512_0_S512x1024 (act (k0_pay27 S x3) (k0_pay28 x4)) x5 (ix1 r)
            + lane 0 slices_S1024x1024_o0_0_S512x1024 (act (k0_pay27 S x3) (k0_pay28 x4)) x6 (ix1 r)) := rfl
  -- the activation at (p, h): sq01 of the product's entry plus the bias
  have ha : ∀ p h : Fin 1024, act (k0_pay27 (F := Ideal) S x3) (k0_pay28 x4) (ix2 p h)
      = sq01 ((∑ f : Fin 768, S (ix2 p f) * x3 (ix2 f h)) + x4 (ix2 (0 : Fin 1) h)) := fun p h => by
    rw [act_apply, pay27_apply, pay28_apply]
  -- rows r (upper half) and r + 512 (lower half) of the activation against the two weight rows
  rw [e, one_f32,
    lane_apply 0 _ _ x5 r (topRow r) (by simp [topRow]), lane_apply 512 _ _ x6 r (botRow r) (by simp [botRow]; omega),
    lane_apply 512 _ _ x5 r (botRow r) (by simp [botRow]; omega), lane_apply 0 _ _ x6 r (topRow r) (by simp [topRow])]
  unfold blend
  simp only [ha]

end Cert.KernelIdeal.Hand

end
-- ==== Proof.KBody.lean ====
/-
  What one grid point's body leaves in the output block, entry by entry.

  At a grid point the body sees 512 samples: their white and black feature rows (x0, x1), their side-to-move words (x2),
  the whole weight table (x3), the bias row (x4) and the two halves of the output weight as rows (x5 "us", x6 "them").
  It builds, in a scratch of 1024 rows (white samples first, black samples after), the count of every table row among each
  sample's 32 words — eight one-hot comparisons summed per group, four groups per side, the later groups added onto the
  scratch —, multiplies the counts with the table, adds the bias, clips to [0, 1], squares, takes the four dot products
  with the output weight's halves and blends them by the side to move.  Entry `r` of the block is therefore module Spec's
  `blend` of the two activations by counts of sample `r`.

  The proof has three steps.  (1) The block the body stores is its closing arithmetic applied to what the one load of the
  whole scratch reads, to the table and to the bias and weight rows.  (2) That load reads what the eight stores left: a
  row of the upper half holds what the fourth store to that half wrote, a row of the lower half what the eighth store
  wrote; each store's value is the value the same half held before plus one group's eight comparisons (the first store of
  a half has no "before"), and a comparison of a word with the row 0 … 767 of table-row numbers is one exactly where the
  word is the number.  So a row holds the sum of 32 zero-or-one terms, which regrouped four by eight is Spec's `count`.
  (3) The closing arithmetic over such a scratch is Spec's `blend`, as module KTail proves.
-/
import proofs.«429867_j52037823758706_3_alg».proof.Proof.Gen.KernelIdeal.Frame
import proofs.«429867_j52037823758706_3_alg».proof.Proof.Spec
import proofs.«429867_j52037823758706_3_alg».proof.Proof.KTail
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Body

open scoped BigOperators
open Idealize.ShloMosaic Idealize.ShloMosaic.ValueIdx Cert.KernelIdeal Cert.KernelIdeal.Gen Cert.Nnue

/-! ## One comparison, and a group of eight -/

/-- One column of feature words compared with the row of table-row numbers 0 … 767: a 512 × 768 array of zeros and
    ones, one where the sample's word is the table row's number. -/
def oneHot {F : FTy → Type} [FloatOps F] (col : Vec F S512x1 .i32) : FVec F S512x768 .bf16 :=
  truncf .bf16 (sitofp .f32 (extui 32 (cmpi .eq (broadcastTo S512x768 col broadcasts_S512x1_S512x768)
    (broadcastTo S512x768 (iota .tc S1x768 32 [1] iota_S1x768_d1_w32) broadcasts_S1x768_S512x768)) natLt_1_32))
    bitsLt_bf16_f32

/-- A comparison for equality of two words, widened and read as a signed integer, is one when they are equal and zero
    otherwise. -/
theorem cmp_eq_val (x y : BitVec 32) :
    FloatOps.sitofp (F := Ideal) .f32 ((IntOp.cmpi .eq x y).setWidth 32) = if x = y then (1 : EReal) else 0 := by
  by_cases h : x = y
  · subst h
    rw [if_pos rfl]
    show ((((BitVec.ofBool (x == x)).setWidth 32).toInt : ℝ) : EReal) = 1
    rw [beq_self_eq_true]
    have e : ((BitVec.ofBool true).setWidth 32).toInt = 1 := by decide
    rw [e]; norm_num
  · rw [if_neg h]
    show ((((BitVec.ofBool (x == y)).setWidth 32).toInt : ℝ) : EReal) = 0
    have hb : (x == y) = false := beq_eq_false_iff_ne.mpr h
    rw [hb]
    have e : ((BitVec.ofBool false).setWidth 32).toInt = 0 := by decide
    rw [e]; norm_num

/-- Read at sample `r` and table row `f`, a column's comparison is `hot` of the sample's word. -/
theorem oneHot_apply (col : Vec Ideal S512x1 .i32) (r : Fin 512) (f : Fin 768) :
    oneHot (F := Ideal) col (ix2 r f) = hot (col (ix2 r (0 : Fin 1))) f := by
  unfold oneHot
  rw [truncf_apply, sitofp_apply, extui_apply]
  show FloatOps.sitofp (F := Ideal) .f32 ((IntOp.cmpi .eq (broadcastTo S512x768 col broadcasts_S512x1_S512x768 (ix2 r f))
    (broadcastTo S512x768 (iota .tc S1x768 32 [1] iota_S1x768_d1_w32) broadcasts_S1x768_S512x768 (ix2 r f))).setWidth 32) = _
  rw [broadcastTo_1b_ab_apply, iota_single_apply,
    broadcastTo_apply col broadcasts_S512x1_S512x768 (ix2 r f) (ix2 r (0 : Fin 1))
      (fun a => match a with | ⟨0, _⟩ => rfl | ⟨1, _⟩ => rfl),
    cmp_eq_val]
  rfl

/-- Eight columns' comparisons added up, in the order the body adds them. -/
def sum8 {F : FTy → Type} [FloatOps F] (c0 c1 c2 c3 c4 c5 c6 c7 : Vec F S512x1 .i32) : FVec F S512x768 .bf16 :=
  addf (addf (addf (addf (addf (addf (addf (oneHot c0) (oneHot c1)) (oneHot c2)) (oneHot c3)) (oneHot c4)) (oneHot c5))
    (oneHot c6)) (oneHot c7)

/-- The row of table-row numbers 0 … 767 the body compares every column with. -/
abbrev rowNums : IVec S1x768 32 := iota .tc S1x768 32 [1] iota_S1x768_d1_w32

/-! ## The eight stored values -/

section Groups
variable {F : FTy → Type} [FloatOps F]

/-! The eight stored values are each the sum of one group's eight comparisons — the first of a side as it stands, the
    later ones added onto what the scratch rows held —, however the body's arithmetic is split into named pieces. -/

theorem topGroup0 (c0 c1 c2 c3 c4 c5 c6 c7 : Vec F S512x1 .i32) :
    k0_pay3 rowNums (k0_pay1 c0 c1 c2 c3 c4) (k0_pay2 c5) c6 c7 = sum8 c0 c1 c2 c3 c4 c5 c6 c7 :=
  shapeCast_self _ _

theorem topGroup1 (c0 c1 c2 c3 c4 c5 c6 c7 : Vec F S512x1 .i32) (P : Vec F S512x768 .bf16) :
    k0_pay6 rowNums (k0_pay4 rowNums c0 c1 c2) (k0_pay5 c3) c4 c5 c6 c7 P = addf P (sum8 c0 c1 c2 c3 c4 c5 c6 c7) :=
  shapeCast_self _ _

theorem topGroup2 (c0 c1 c2 c3 c4 c5 c6 c7 : Vec F S512x1 .i32) (P : Vec F S512x768 .bf16) :
    k0_pay11 rowNums (k0_pay8 rowNums (k0_pay7 c0) c1 c2 c3 c4 c5) (k0_pay9 c6) (k0_pay10 rowNums) c7 P
      = addf P (sum8 c0 c1 c2 c3 c4 c5 c6 c7) :=
  shapeCast_self _ _

theorem topGroup3 (c0 c1 c2 c3 c4 c5 c6 c7 : Vec F S512x1 .i32) (P : Vec F S512x768 .bf16) :
    k0_pay14 rowNums (k0_pay12 rowNums c0 c1 c2) (k0_pay13 rowNums c3) c4 c5 c6 c7 P
      = addf P (sum8 c0 c1 c2 c3 c4 c5 c6 c7) :=
  shapeCast_self _ _

theorem botGroup0 (c0 c1 c2 c3 c4 c5 c6 c7 : Vec F S512x1 .i32) :
    k0_pay18 rowNums (k0_pay16 rowNums (k0_pay15 rowNums c0) c1 c2 c3 c4 c5) (k0_pay17 rowNums c6) c7
      = sum8 c0 c1 c2 c3 c4 c5 c6 c7 :=
  shapeCast_self _ _

theorem botGroup1 (c0 c1 c2 c3 c4 c5 c6 c7 : Vec F S512x1 .i32) (P : Vec F S512x768 .bf16) :
    k0_pay20 rowNums (k0_pay19 rowNums c0 c1 c2 c3) c4 c5 c6 c7 P = addf P (sum8 c0 c1 c2 c3 c4 c5 c6 c7) :=
  shapeCast_self _ _

theorem botGroup2 (c0 c1 c2 c3 c4 c5 c6 c7 : Vec F S512x1 .i32) (P : Vec F S512x768 .bf16) :
    k0_pay23 rowNums (k0_pay22 rowNums (k0_pay21 rowNums c0) c1 c2 c3 c4 c5 c6) c7 P
      = addf P (sum8 c0 c1 c2 c3 c4 c5 c6 c7) :=
  shapeCast_self _ _

theorem botGroup3 (c0 c1 c2 c3 c4 c5 c6 c7 : Vec F S512x1 .i32) (P : Vec F S512x768 .bf16) :
    k0_pay26 rowNums (k0_pay24 rowNums c0 c1 c2 c3) (k0_pay25 c4) c5 c6 c7 P
      = addf P (sum8 c0 c1 c2 c3 c4 c5 c6 c7) :=
  shapeCast_self _ _

end Groups

/-! ## The scratch's halves, and reading it back -/

section Scratch
variable {F : FTy → Type} [FloatOps F]

/-- The upper half (rows 0 … 511) and the lower half (rows 512 … 1023) of the scratch, as rectangles. -/
abbrev topRect : Rect S1024x768 := Rect.unit (s := S1024x768) ![0, 0] S512x768.size inb_S1024x768_S512x768_0_0
abbrev botRect : Rect S1024x768 := Rect.unit (s := S1024x768) ![512, 0] S512x768.size inb_S1024x768_S512x768_512_0

/-- Entry (r, f) of the upper half is entry (r, f) of the scratch; -/
theorem topRect_emb (r : Fin 512) (f : Fin 768) : topRect.emb (ix2 r f) = ix2 (topRow r) f :=
  Shape.idx_ext₂ (by show 0 + 1 * r.val = r.val; omega) (by show 0 + 1 * f.val = f.val; omega)

/-- entry (r, f) of the lower half is entry (r + 512, f). -/
theorem botRect_emb (r : Fin 512) (f : Fin 768) : botRect.emb (ix2 r f) = ix2 (botRow r) f :=
  Shape.idx_ext₂ (by show 512 + 1 * r.val = r.val + 512; omega) (by show 0 + 1 * f.val = f.val; omega)

/-- A row of the upper half is not in the lower half. -/
theorem top_not_mem_bot (r : Fin 512) (f : Fin 768) : ix2 (topRow r) f ∉ botRect.set := by
  intro h
  have h0 := (Rect.mem_set_unit.mp h 0).1
  have : (512 : ℕ) ≤ r.val := h0
  have := r.isLt
  omega

/-- A store to the lower half leaves the upper half's rows as they were; -/
theorem canon_top_skip (w : botRect.shape.Idx → Elt F .bf16) (L : List (View.Piece (Elt F) S1024x768 .bf16))
    (r : Fin 512) (f : Fin 768) :
    View.canon (⟨botRect, w⟩ :: L) (ix2 (topRow r) f) = View.canon L (ix2 (topRow r) f) :=
  View.canon_cons_of_not_mem _ L (top_not_mem_bot r f)

/-- a store to the upper half, the latest, is what its rows hold; -/
theorem canon_top_hit (w : topRect.shape.Idx → Elt F .bf16) (L : List (View.Piece (Elt F) S1024x768 .bf16))
    (r : Fin 512) (f : Fin 768) :
    View.canon (⟨topRect, w⟩ :: L) (ix2 (topRow r) f) = w (ix2 r f) := by
  rw [← topRect_emb]; exact View.canon_cons_emb topRect w L (ix2 r f)

/-- and a store to the lower half, the latest, is what its rows hold. -/
theorem canon_bot_hit (w : botRect.shape.Idx → Elt F .bf16) (L : List (View.Piece (Elt F) S1024x768 .bf16))
    (r : Fin 512) (f : Fin 768) :
    View.canon (⟨botRect, w⟩ :: L) (ix2 (botRow r) f) = w (ix2 r f) := by
  rw [← botRect_emb]; exact View.canon_cons_emb botRect w L (ix2 r f)

/-- The one load of the whole scratch after the stores reads what the stores left. -/
theorem readCov_whole {sig : RefSig} {κ : Kind} {sp : Space} (v : View sig κ sp S1024x768 .bf16)
    (L : List (View.Piece (Elt F) S1024x768 .bf16)) :
    v.readCov L (Rect.unit (s := S1024x768) ![0, 0] S1024x768.size inb_S1024x768_S1024x768_0_0).toLoadRect
      = View.canon L :=
  (View.readCov_eq_canon' v L _).trans
    (View.ld_unit_zero (S := S1024x768) (by funext a; fin_cases a <;> rfl) inb_S1024x768_S1024x768_0_0 (View.canon L))

end Scratch

section Columns
variable {F : FTy → Type} [FloatOps F]

/-- The body's load of column `k` of a sample block, read at sample `r`, is the block's entry (r, k). -/
theorem readAt_col (arg : Memref sig .tc .vmem S512x32 .i32) (harg : arg.IsWhole) (x : Vec F S512x32 .i32) (k : ℕ)
    (inb : ∀ a, (![0, k] : Fin 2 → ℕ) a + S512x1.size a ≤ S512x32.size a) (r : Fin 512) :
    View.readAt (Elt F) arg.view (Rect.unit (s := S512x32) ![0, k] S512x1.size inb).toLoadRect (harg.unread x)
        (ix2 r (0 : Fin 1))
      = x (ix2 r (⟨k, Nat.lt_of_succ_le (inb 1)⟩ : Fin 32)) := by
  rw [View.readAt_eq_ld, harg.read_unread]
  show x ((Rect.unit (s := S512x32) ![0, k] S512x1.size inb).idx (ix2 r (0 : Fin 1))) = _
  exact congrArg x (Shape.idx_ext₂ (by show 0 + 1 * r.val = r.val; omega) (by show k + 1 * 0 = k; omega))

end Columns

/-! ## Thirty-two comparisons are the count -/

/-- The count over a row's 32 words, as four groups of eight. -/
theorem count_groups (row : Fin 32 → BitVec 32) (f : Fin 768) :
    Nnue.count row f = ∑ a : Fin 4, ∑ b : Fin 8, hot (row (finProdFinEquiv (a, b))) f := by
  unfold Nnue.count
  rw [← Fintype.sum_prod_type (f := fun p : Fin 4 × Fin 8 => hot (row (finProdFinEquiv p)) f)]
  exact (Equiv.sum_comp (finProdFinEquiv (m := 4) (n := 8)) (fun k => hot (row k) f)).symm

/-! ## What the finished scratch holds -/

section ScratchContents

/-- What the finished scratch holds in a white sample's row: the counts of that sample's white feature words. -/
theorem scr_top (c : Dev nD)
    (arg1 : Memref sig .tc .vmem S512x32 .i32) (harg1 : arg1.IsWhole) (arg2 : Memref sig .tc .vmem S512x32 .i32) (harg2 : arg2.IsWhole)
    (arg9 : Memref sig .tc .vmem S1024x768 .bf16) (x0 x1 : Vec Ideal S512x32 .i32) (r : Fin 512) (f : Fin 768) :
    kernelRun0_A.sl.v541 (F := Ideal) c arg1 harg1 arg2 harg2 arg9 x0 x1 (ix2 (topRow r) f)
      = Nnue.count (fun k => x0 (ix2 r k)) f := by
  -- the whole-scratch load reads what the eight stores left; the four stores to the lower half pass this row by
  unfold kernelRun0_A.sl.v541
  rw [readCov_whole]
  unfold kernelRun0_A.sl.HS0_8; rw [canon_top_skip (F := Ideal)]
  unfold kernelRun0_A.sl.HS0_7; rw [canon_top_skip (F := Ideal)]
  unfold kernelRun0_A.sl.HS0_6; rw [canon_top_skip (F := Ideal)]
  unfold kernelRun0_A.sl.HS0_5; rw [canon_top_skip (F := Ideal), canon_top_hit (F := Ideal)]
  -- the fourth group, added onto what the third store left, and so on down to the first
  unfold kernelRun0_A.sl.r_7 kernelRun0_A.sl.r_8 kernelRun0_A.sl.v0
  rw [topGroup3]
  unfold kernelRun0_A.sl.v266 kernelRun0_A.sl.HS0_3
  rw [View.readCov_cons_toLoadRect]
  unfold kernelRun0_A.sl.r_5 kernelRun0_A.sl.r_6 kernelRun0_A.sl.r_4 kernelRun0_A.sl.v0
  rw [topGroup2]
  unfold kernelRun0_A.sl.v198 kernelRun0_A.sl.HS0_2
  rw [View.readCov_cons_toLoadRect]
  unfold kernelRun0_A.sl.r_2 kernelRun0_A.sl.r_3 kernelRun0_A.sl.v0
  rw [topGroup1]
  unfold kernelRun0_A.sl.v130 kernelRun0_A.sl.HS0_1
  rw [View.readCov_cons_toLoadRect]
  unfold kernelRun0_A.sl.r kernelRun0_A.sl.r_1 kernelRun0_A.sl.v0
  rw [topGroup0]
  -- entry by entry: 32 comparisons, each one where the word is the table row's number
  simp only [addf_apply, sum8, oneHot_apply, readAt_col (F := Ideal)]
  rw [count_groups]
  simp only [Fin.sum_univ_four, Fin.sum_univ_eight]
  rfl

/-- What it holds in a black sample's row: the counts of that sample's black feature words. -/
theorem scr_bot (c : Dev nD)
    (arg1 : Memref sig .tc .vmem S512x32 .i32) (harg1 : arg1.IsWhole) (arg2 : Memref sig .tc .vmem S512x32 .i32) (harg2 : arg2.IsWhole)
    (arg9 : Memref sig .tc .vmem S1024x768 .bf16) (x0 x1 : Vec Ideal S512x32 .i32) (r : Fin 512) (f : Fin 768) :
    kernelRun0_A.sl.v541 (F := Ideal) c arg1 harg1 arg2 harg2 arg9 x0 x1 (ix2 (botRow r) f)
      = Nnue.count (fun k => x1 (ix2 r k)) f := by
  unfold kernelRun0_A.sl.v541
  rw [readCov_whole]
  unfold kernelRun0_A.sl.HS0_8; rw [canon_bot_hit (F := Ideal)]
  unfold kernelRun0_A.sl.r_17 kernelRun0_A.sl.r_18 kernelRun0_A.sl.v0
  rw [botGroup3]
  unfold kernelRun0_A.sl.v536 kernelRun0_A.sl.HS0_7
  rw [View.readCov_cons_toLoadRect]
  unfold kernelRun0_A.sl.r_15 kernelRun0_A.sl.r_16 kernelRun0_A.sl.r_13 kernelRun0_A.sl.r_14 kernelRun0_A.sl.v0
  rw [botGroup2]
  unfold kernelRun0_A.sl.v468 kernelRun0_A.sl.HS0_6
  rw [View.readCov_cons_toLoadRect]
  unfold kernelRun0_A.sl.r_12 kernelRun0_A.sl.v0
  rw [botGroup1]
  unfold kernelRun0_A.sl.v400 kernelRun0_A.sl.HS0_5
  rw [View.readCov_cons_toLoadRect]
  unfold kernelRun0_A.sl.r_10 kernelRun0_A.sl.r_11 kernelRun0_A.sl.r_9 kernelRun0_A.sl.v0
  rw [botGroup0]
  simp only [addf_apply, sum8, oneHot_apply, readAt_col (F := Ideal)]
  rw [count_groups]
  simp only [Fin.sum_univ_four, Fin.sum_univ_eight]
  rfl

end ScratchContents

end Cert.KernelIdeal.Hand.Body

namespace Cert.KernelIdeal.Hand

open scoped BigOperators
open Idealize.ShloMosaic Idealize.ShloMosaic.ValueIdx Cert.KernelIdeal Cert.KernelIdeal.Gen Cert.Nnue
open Cert.KernelIdeal.Hand.Body

/-- Entry `r` of the output block the body leaves, as the blend of the two activations by counts of sample `r`. -/
theorem body_value (c : Dev nD) (i : grid0.Coords)
    (arg1 : Memref sig .tc .vmem S512x32 .i32) (harg1 : arg1.IsWhole) (arg2 : Memref sig .tc .vmem S512x32 .i32) (harg2 : arg2.IsWhole)
    (arg3 : Memref sig .tc .vmem S512 .i32) (harg3 : arg3.IsWhole) (arg4 : Memref sig .tc .vmem S768x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S512 .f32) (harg8 : arg8.IsWhole)
    (arg9 : Memref sig .tc .vmem S1024x768 .bf16) (harg9 : arg9.IsWhole)
    (x0 x1 : Vec Ideal S512x32 .i32) (x2 : Vec Ideal S512 .i32) (x3 : Vec Ideal S768x1024 .bf16)
    (x4 x5 x6 : Vec Ideal S1x1024 .f32) (r : Fin 512) :
    out0_A_7 (F := Ideal) c i arg1 harg1 arg2 harg2 arg3 harg3 arg4 harg4 arg5 harg5 arg6 harg6 arg7 harg7 arg8 harg8 arg9 harg9
        x0 x1 x2 x3 x4 x5 x6 (ix1 r)
      = blend
          (fun h => sq01 (accCount (fun k => x0 (ix2 r k)) (fun f h' => x3 (ix2 f h')) (fun h' => x4 (ix2 (0 : Fin 1) h')) h))
          (fun h => sq01 (accCount (fun k => x1 (ix2 r k)) (fun f h' => x3 (ix2 f h')) (fun h' => x4 (ix2 (0 : Fin 1) h')) h))
          (side (x2 (ix1 r))) (fun h => x5 (ix2 (0 : Fin 1) h)) (fun h => x6 (ix2 (0 : Fin 1) h)) := by
  have hz1 : (![0] : Fin 1 → ℕ) = fun _ => 0 := by funext a; fin_cases a; rfl
  have hz2 : (![0, 0] : Fin 2 → ℕ) = fun _ => 0 := by funext a; fin_cases a <;> rfl
  -- (1) the stored block is the closing arithmetic over what the load of the whole scratch read
  have hS : out0_A_7 (F := Ideal) c i arg1 harg1 arg2 harg2 arg3 harg3 arg4 harg4 arg5 harg5 arg6 harg6 arg7 harg7 arg8 harg8
        arg9 harg9 x0 x1 x2 x3 x4 x5 x6
      = k0_pay29 (F := Ideal) (k0_pay27 (kernelRun0_A.sl.v541 (F := Ideal) c arg1 harg1 arg2 harg2 arg9 x0 x1) x3)
          (k0_pay28 x4) x5 x6 x2 := by
    unfold out0_A_7
    rw [View.read_writes_eq_canon _ _ _
      (cover0_A_7 c i arg1 harg1 arg2 harg2 arg3 harg3 arg4 harg4 arg5 harg5 arg6 harg6 arg7 harg7 arg8 harg8 arg9 harg9
        x0 x1 x2 x3 x4 x5 x6)]
    unfold kernelRun0_A
    dsimp only
    rw [View.canon_unit_zero (S := S512) hz1]
    unfold kernelRun0_A.sl.r_19 kernelRun0_A.sl.r_20
    simp only [View.readAt_eq_ld, harg3.read_unread, harg4.read_unread, harg5.read_unread, harg6.read_unread,
      harg7.read_unread, View.ld_unit_zero (S := S512) hz1, View.ld_unit_zero (S := S768x1024) hz2,
      View.ld_unit_zero (S := S1x1024) hz2]
  -- (3) the closing arithmetic is the blend, and (2) the scratch's rows are the counts
  rw [hS, block_tail]
  simp only [scr_top, scr_bot]
  rfl

end Cert.KernelIdeal.Hand

end
-- ==== Proof.SpecArr.lean ====
/-
  The two arrangements of the network (module Spec) read off the seven argument ARRAYS: sample `b` takes row `b` of the
  two feature arrays and entry `b` of the side-to-move array; the table, the bias, the output weight and the output
  bias are shared by all samples.  `GkArr` and `GrArr` are the whole result arrays in the two arrangements.
-/
import proofs.«429867_j52037823758706_3_alg».proof.Proof.Spec
import Idealize.ShloMosaic.Lib.ValueIdx

noncomputable section

namespace Cert.Nnue

open Idealize.ShloMosaic Idealize.ShloMosaic.ValueIdx

abbrev SFeat : Shape := ⟨2, ![8192, 32]⟩
abbrev SBatch : Shape := ⟨1, ![8192]⟩
abbrev STable : Shape := ⟨2, ![768, 1024]⟩
abbrev SHidden : Shape := ⟨1, ![1024]⟩
abbrev SOutW : Shape := ⟨1, ![2048]⟩
abbrev SOne : Shape := ⟨1, ![1]⟩

/-- A per-sample function of (white row, black row, side word, table, bias, output weight, output bias) applied to
    every sample of the argument arrays. -/
def sample
    (G : (Fin 32 → BitVec 32) → (Fin 32 → BitVec 32) → BitVec 32 → (Fin 768 → Fin 1024 → EReal) → (Fin 1024 → EReal)
      → (Fin 2048 → EReal) → EReal → EReal)
    (a0 a1 : IVec SFeat 32) (a2 : IVec SBatch 32) (a3 : FVec Ideal STable .f32) (a4 : FVec Ideal SHidden .f32)
    (a5 : FVec Ideal SOutW .f32) (a6 : FVec Ideal SOne .f32) : FVec Ideal SBatch .f32 :=
  fun i => G (fun k => a0 (ix2 (i 0) k)) (fun k => a1 (ix2 (i 0) k)) (a2 i) (fun f h => a3 (ix2 f h)) (fun h => a4 (ix1 h))
    (fun j => a5 (ix1 j)) (a6 (ix1 0))

/-- The result array, arranged as counts and four dot products. -/
def GkArr := sample Gk

/-- The result array, arranged as picks and one long dot product. -/
def GrArr := sample Gr

end Cert.Nnue

end
-- ==== Proof.KArray.lean ====
/-
  The idealized kernel program's result array.

  The grid has 16 points; point `t` stages rows 512·t … 512·t + 511 of the two feature arrays and of the side-to-move array,
  the whole weight table (converted to the narrower float format by the host, which changes nothing over the extended
  reals), the bias as a row, and the two halves of the output weight as rows; it writes back block `t` of the output, whose
  entry `r` is the blend of sample 512·t + r (module KBody).  The 16 blocks tile the output, so the array the region leaves
  is, sample by sample, the blend; the host then adds the output bias to every entry.  Altogether the program's result is
  `GkArr` of its seven argument arrays.

  The steps: where each window's block sits in its array (the index maps, decided once over the grid; a block's
  coordinate is the block index times the block's size plus the coordinate inside the block); the arrays the region finds
  as the argument arrays (three are arguments no host line writes, four are a conversion, a reshape, or a half of the
  output weight reshaped); entry `r` of the block point `t` leaves as the blend of sample 512·t + r; point `t`'s write-back
  as block `t` of ONE array, the blend of every sample; every sample in the block of point `sample / 512`, so the output
  array ends as that array; the host lines after the region: the output bias reshaped to a scalar, broadcast over the
  samples and added.
-/
import proofs.«429867_j52037823758706_3_alg».proof.Proof.KBody
import proofs.«429867_j52037823758706_3_alg».proof.Proof.SpecArr
import Idealize.ShloMosaic.Lib.StableHlo.Run

set_option maxRecDepth 16384

noncomputable section

namespace Cert.KernelIdeal.Hand.Arr

open Idealize.ShloMosaic Idealize.ShloMosaic.ValueIdx Idealize.ShloMosaic.TcCoe Idealize.SL.Sem
open Cert.KernelIdeal Cert.KernelIdeal.Gen Cert.Nnue

variable (m : (ℓ : Loc nD τ sig) → Buf (Elt Ideal) ℓ)

/-! ## Where each window's block sits in its array -/

/-- The block index of each window at a grid point: the three sample-wise windows and the output move with the point,
    the four shared windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val :=
  (by decide +kernel : ∀ t : Fin grid0.N, _)

/-- The seven input blocks at a grid point, -/
abbrev wblk (c : Dev nD) (t : Fin cfg0.N) : Vec Ideal S512x32 .i32 := iblk m c 0 t
abbrev bblk (c : Dev nD) (t : Fin cfg0.N) : Vec Ideal S512x32 .i32 := iblk m c 1 t
abbrev sblk (c : Dev nD) (t : Fin cfg0.N) : Vec Ideal S512 .i32 := iblk m c 2 t
abbrev tblk (c : Dev nD) (t : Fin cfg0.N) : Vec Ideal S768x1024 .bf16 := iblk m c 3 t
abbrev biasblk (c : Dev nD) (t : Fin cfg0.N) : Vec Ideal S1x1024 .f32 := iblk m c 4 t
abbrev usblk (c : Dev nD) (t : Fin cfg0.N) : Vec Ideal S1x1024 .f32 := iblk m c 5 t
abbrev themblk (c : Dev nD) (t : Fin cfg0.N) : Vec Ideal S1x1024 .f32 := iblk m c 6 t
/-- and the seven arrays they are blocks of, as the region finds them. -/
abbrev warr (c : Dev nD) : Vec Ideal S8192x32 .i32 := V m c main_arg0
abbrev barr (c : Dev nD) : Vec Ideal S8192x32 .i32 := V m c main_arg1
abbrev sarr (c : Dev nD) : Vec Ideal S8192 .i32 := V m c main_arg2
abbrev tarr (c : Dev nD) : Vec Ideal S768x1024 .bf16 := V m c main_v0
abbrev biasarr (c : Dev nD) : Vec Ideal S1x1024 .f32 := V m c main_v1
abbrev usarr (c : Dev nD) : Vec Ideal S1x1024 .f32 := V m c main_v3
abbrev themarr (c : Dev nD) : Vec Ideal S1x1024 .f32 := V m c main_v5

/-- Row `r` of the white feature block at point `t` is row `512·t + r` of the white feature array. -/
theorem wblk_apply (c : Dev nD) (t : Fin cfg0.N) (r : Fin 512) (k : Fin 32) (b : Fin 8192) (hb : b.val = 512 * t.val + r.val) :
    wblk m c t (ix2 r k) = warr m c (ix2 b k) := by
  obtain ⟨e0, e1, -⟩ := idx_facts t
  show iblk m c 0 t (ix2 r k) = V m c main_arg0 (ix2 b k)
  unfold iblk
  rw [View.read_apply]
  show V m c main_arg0 _ = V m c main_arg0 _
  congr 1
  funext a
  apply Fin.ext
  match a with
  | ⟨0, _⟩ => show win0_0.index t 0 * 512 + 1 * r.val = b.val; rw [e0, hb]; omega
  | ⟨1, _⟩ => show win0_0.index t 1 * 32 + 1 * k.val = k.val; rw [e1]; omega

/-- The same for the black feature block. -/
theorem bblk_apply (c : Dev nD) (t : Fin cfg0.N) (r : Fin 512) (k : Fin 32) (b : Fin 8192) (hb : b.val = 512 * t.val + r.val) :
    bblk m c t (ix2 r k) = barr m c (ix2 b k) := by
  obtain ⟨-, -, e0, e1, -⟩ := idx_facts t
  show iblk m c 1 t (ix2 r k) = V m c main_arg1 (ix2 b k)
  unfold iblk
  rw [View.read_apply]
  show V m c main_arg1 _ = V m c main_arg1 _
  congr 1
  funext a
  apply Fin.ext
  match a with
  | ⟨0, _⟩ => show win0_1.index t 0 * 512 + 1 * r.val = b.val; rw [e0, hb]; omega
  | ⟨1, _⟩ => show win0_1.index t 1 * 32 + 1 * k.val = k.val; rw [e1]; omega

/-- Entry `r` of the side-to-move block at point `t` is entry `512·t + r` of the side-to-move array. -/
theorem sblk_apply (c : Dev nD) (t : Fin cfg0.N) (r : Fin 512) (b : Fin 8192) (hb : b.val = 512 * t.val + r.val) :
    sblk m c t (ix1 r) = sarr m c (ix1 b) := by
  obtain ⟨-, -, -, -, e0, -⟩ := idx_facts t
  show iblk m c 2 t (ix1 r) = V m c main_arg2 (ix1 b)
  unfold iblk
  rw [View.read_apply]
  show V m c main_arg2 _ = V m c main_arg2 _
  congr 1
  funext a
  apply Fin.ext
  match a with
  | ⟨0, _⟩ => show win0_2.index t 0 * 512 + 1 * r.val = b.val; rw [e0, hb]; omega

/-- The table's block is the whole table at every point. -/
theorem tblk_apply (c : Dev nD) (t : Fin cfg0.N) (f : Fin 768) (h : Fin 1024) :
    tblk m c t (ix2 f h) = tarr m c (ix2 f h) := by
  obtain ⟨-, -, -, -, -, e0, e1, -⟩ := idx_facts t
  show iblk m c 3 t (ix2 f h) = V m c main_v0 (ix2 f h)
  unfold iblk
  rw [View.read_apply]
  show V m c main_v0 _ = V m c main_v0 _
  congr 1
  funext a
  apply Fin.ext
  match a with
  | ⟨0, _⟩ => show win0_3.index t 0 * 768 + 1 * f.val = f.val; rw [e0]; omega
  | ⟨1, _⟩ => show win0_3.index t 1 * 1024 + 1 * h.val = h.val; rw [e1]; omega

/-- The bias row's block is the whole row at every point. -/
theorem biasblk_apply (c : Dev nD) (t : Fin cfg0.N) (z : Fin 1) (h : Fin 1024) :
    biasblk m c t (ix2 z h) = biasarr m c (ix2 z h) := by
  obtain ⟨-, -, -, -, -, -, -, e0, e1, -⟩ := idx_facts t
  show iblk m c 4 t (ix2 z h) = V m c main_v1 (ix2 z h)
  unfold iblk
  rw [View.read_apply]
  show V m c main_v1 _ = V m c main_v1 _
  congr 1
  funext a
  apply Fin.ext
  match a with
  | ⟨0, _⟩ => show win0_4.index t 0 * 1 + 1 * z.val = z.val; rw [e0]; omega
  | ⟨1, _⟩ => show win0_4.index t 1 * 1024 + 1 * h.val = h.val; rw [e1]; omega

/-- The "us" half's block is the whole row at every point. -/
theorem usblk_apply (c : Dev nD) (t : Fin cfg0.N) (z : Fin 1) (h : Fin 1024) :
    usblk m c t (ix2 z h) = usarr m c (ix2 z h) := by
  obtain ⟨-, -, -, -, -, -, -, -, -, e0, e1, -⟩ := idx_facts t
  show iblk m c 5 t (ix2 z h) = V m c main_v3 (ix2 z h)
  unfold iblk
  rw [View.read_apply]
  show V m c main_v3 _ = V m c main_v3 _
  congr 1
  funext a
  apply Fin.ext
  match a with
  | ⟨0, _⟩ => show win0_5.index t 0 * 1 + 1 * z.val = z.val; rw [e0]; omega
  | ⟨1, _⟩ => show win0_5.index t 1 * 1024 + 1 * h.val = h.val; rw [e1]; omega

/-- The "them" half's block is the whole row at every point. -/
theorem themblk_apply (c : Dev nD) (t : Fin cfg0.N) (z : Fin 1) (h : Fin 1024) :
    themblk m c t (ix2 z h) = themarr m c (ix2 z h) := by
  obtain ⟨-, -, -, -, -, -, -, -, -, -, -, e0, e1, -⟩ := idx_facts t
  show iblk m c 6 t (ix2 z h) = V m c main_v5 (ix2 z h)
  unfold iblk
  rw [View.read_apply]
  show V m c main_v5 _ = V m c main_v5 _
  congr 1
  funext a
  apply Fin.ext
  match a with
  | ⟨0, _⟩ => show win0_6.index t 0 * 1 + 1 * z.val = z.val; rw [e0]; omega
  | ⟨1, _⟩ => show win0_6.index t 1 * 1024 + 1 * h.val = h.val; rw [e1]; omega

/-! ## The arrays the region finds, as the argument arrays -/

/-- The three sample-wise arrays are arguments no host line writes. -/
theorem warr_eq (c : Dev nD) : warr m c = m ((c.tc : Thread nD τ).loc main_arg0) := V_main_arg0 m c
theorem barr_eq (c : Dev nD) : barr m c = m ((c.tc : Thread nD τ).loc main_arg1) := V_main_arg1 m c
theorem sarr_eq (c : Dev nD) : sarr m c = m ((c.tc : Thread nD τ).loc main_arg2) := V_main_arg2 m c

/-- The table the region finds is the table argument: the conversion to the narrower format is the identity over the
    extended reals. -/
theorem tarr_eq (c : Dev nD) : (tarr m c : S768x1024.Idx → EReal) = m ((c.tc : Thread nD τ).loc main_arg3) := by
  show StableHlo.after hostOps0 (fun b => m (c, b)) (Proc.devRef .tc main_v0) = _
  after_results
  rfl

/-- The bias row is the bias argument reshaped. -/
theorem biasarr_eq (c : Dev nD) : (biasarr m c : S1x1024.Idx → EReal)
    = shapeCast S1x1024 (m ((c.tc : Thread nD τ).loc main_arg4)) shapeCasts_S1024_S1x1024 := by
  show StableHlo.after hostOps0 (fun b => m (c, b)) (Proc.devRef .tc main_v1) = _
  after_results
  rfl

/-- The "us" row is the first half of the output weight, reshaped. -/
theorem usarr_eq (c : Dev nD) : (usarr m c : S1x1024.Idx → EReal)
    = shapeCast S1x1024 (extractStridedSlice S1024 ![0] (m ((c.tc : Thread nD τ).loc main_arg5)) slices_S2048_S1024_0)
        shapeCasts_S1024_S1x1024 := by
  show StableHlo.after hostOps0 (fun b => m (c, b)) (Proc.devRef .tc main_v3) = _
  after_results
  rfl

/-- The "them" row is the second half of the output weight, reshaped. -/
theorem themarr_eq (c : Dev nD) : (themarr m c : S1x1024.Idx → EReal)
    = shapeCast S1x1024 (extractStridedSlice S1024 ![1024] (m ((c.tc : Thread nD τ).loc main_arg5)) slices_S2048_S1024_1024)
        shapeCasts_S1024_S1x1024 := by
  show StableHlo.after hostOps0 (fun b => m (c, b)) (Proc.devRef .tc main_v5) = _
  after_results
  rfl

/-- A vector of 1024 reshaped to one row, read at column `h`, is the vector at `h`. -/
theorem row_apply (x : S1024.Idx → EReal) (z : Fin 1) (h : Fin 1024) :
    shapeCast S1x1024 x shapeCasts_S1024_S1x1024 (ix2 z h) = x (ix1 h) := by
  refine shapeCast_apply x shapeCasts_S1024_S1x1024 (ix2 z h) (ix1 h) ?_
  rw [Shape.rowMajor_val_one, Shape.rowMajor_val_two]
  have hz : z.val = 0 := by omega
  show h.val = z.val * 1024 + h.val
  rw [hz]; omega

/-- The bias row at column `h` is the bias argument at `h`. -/
theorem biasarr_apply (c : Dev nD) (z : Fin 1) (h : Fin 1024) :
    biasarr m c (ix2 z h) = (m ((c.tc : Thread nD τ).loc main_arg4) : SHidden.Idx → EReal) (ix1 h) := by
  refine (congrFun (biasarr_eq m c) (ix2 z h)).trans ?_
  exact row_apply _ z h

/-- The "us" row at column `h` is the output weight's first half at `h`. -/
theorem usarr_apply (c : Dev nD) (z : Fin 1) (h : Fin 1024) :
    usarr m c (ix2 z h) = lo (fun j => (m ((c.tc : Thread nD τ).loc main_arg5) : SOutW.Idx → EReal) (ix1 j)) h := by
  refine (congrFun (usarr_eq m c) (ix2 z h)).trans ?_
  refine (row_apply _ z h).trans ?_
  refine extractStridedSlice_apply ![0] _ slices_S2048_S1024_0 (ix1 h) (ix1 (⟨h.val, by omega⟩ : Fin 2048)) fun a => ?_
  match a with
  | ⟨0, _⟩ => show h.val = 0 + h.val; omega

/-- The "them" row at column `h` is the output weight's second half at `h`. -/
theorem themarr_apply (c : Dev nD) (z : Fin 1) (h : Fin 1024) :
    themarr m c (ix2 z h) = hi (fun j => (m ((c.tc : Thread nD τ).loc main_arg5) : SOutW.Idx → EReal) (ix1 j)) h := by
  refine (congrFun (themarr_eq m c) (ix2 z h)).trans ?_
  refine (row_apply _ z h).trans ?_
  refine extractStridedSlice_apply ![1024] _ slices_S2048_S1024_1024 (ix1 h) (ix1 (⟨h.val + 1024, by omega⟩ : Fin 2048)) fun a => ?_
  match a with
  | ⟨0, _⟩ => show h.val + 1024 = 1024 + h.val; omega

/-! ## What the region leaves: the blend, sample by sample -/

/-- The network's output for one sample before the output bias is added (the last argument is not used: it keeps the
    shape `sample` asks for). -/
def Gblend (wrow brow : Fin 32 → BitVec 32) (s : BitVec 32) (W : Fin 768 → Fin 1024 → EReal) (bias : Fin 1024 → EReal)
    (ow : Fin 2048 → EReal) (_ : EReal) : EReal :=
  blend (fun h => sq01 (accCount wrow W bias h)) (fun h => sq01 (accCount brow W bias h)) (side s) (lo ow) (hi ow)

/-- The array the region leaves in its output: the blend of every sample of the argument arrays. -/
abbrev regionArr (c : Dev nD) : FVec Ideal SBatch .f32 :=
  sample Gblend (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- Entry `r` of the output block the body leaves at point `t` is the blend of sample `512·t + r`. -/
theorem point_value (c : Dev nD) (t : Fin cfg0.N) (r : Fin 512) (b : Fin 8192) (hb : b.val = 512 * t.val + r.val) :
    outsAt0 m c t (ix1 r) = regionArr m c (ix1 b) := by
  unfold outsAt0
  refine (body_value c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (wblk m c t) (bblk m c t) (sblk m c t) (tblk m c t) (biasblk m c t) (usblk m c t) (themblk m c t) r).trans ?_
  have hw : (fun k => wblk m c t (ix2 r k)) = fun k => (m ((c.tc : Thread nD τ).loc main_arg0) : SFeat.Idx → BitVec 32) (ix2 b k) :=
    funext fun k => (wblk_apply m c t r k b hb).trans (congrFun (warr_eq m c) (ix2 b k))
  have hbk : (fun k => bblk m c t (ix2 r k)) = fun k => (m ((c.tc : Thread nD τ).loc main_arg1) : SFeat.Idx → BitVec 32) (ix2 b k) :=
    funext fun k => (bblk_apply m c t r k b hb).trans (congrFun (barr_eq m c) (ix2 b k))
  have hs : sblk m c t (ix1 r) = (m ((c.tc : Thread nD τ).loc main_arg2) : SBatch.Idx → BitVec 32) (ix1 b) :=
    (sblk_apply m c t r b hb).trans (congrFun (sarr_eq m c) (ix1 b))
  have hW : (fun (f : Fin 768) (h' : Fin 1024) => tblk m c t (ix2 f h'))
      = fun f h' => (m ((c.tc : Thread nD τ).loc main_arg3) : STable.Idx → EReal) (ix2 f h') :=
    funext fun f => funext fun h' => (tblk_apply m c t f h').trans (congrFun (tarr_eq m c) (ix2 f h'))
  have hbias : (fun h' : Fin 1024 => biasblk m c t (ix2 (0 : Fin 1) h'))
      = fun h' => (m ((c.tc : Thread nD τ).loc main_arg4) : SHidden.Idx → EReal) (ix1 h') :=
    funext fun h' => (biasblk_apply m c t 0 h').trans (biasarr_apply m c 0 h')
  have hus : (fun h : Fin 1024 => usblk m c t (ix2 (0 : Fin 1) h))
      = lo (fun j => (m ((c.tc : Thread nD τ).loc main_arg5) : SOutW.Idx → EReal) (ix1 j)) :=
    funext fun h => (usblk_apply m c t 0 h).trans (usarr_apply m c 0 h)
  have hthem : (fun h : Fin 1024 => themblk m c t (ix2 (0 : Fin 1) h))
      = hi (fun j => (m ((c.tc : Thread nD τ).loc main_arg5) : SOutW.Idx → EReal) (ix1 j)) :=
    funext fun h => (themblk_apply m c t 0 h).trans (themarr_apply m c 0 h)
  rw [hw, hbk, hs, hW, hbias, hus, hthem]
  rfl

/-! ## From the blocks to the array -/

/-- What point `t` writes back is block `t` of the blend array. -/
theorem flushed_eq (c : Dev nD) (t : Fin cfg0.N) :
    (dats m 0 c).flushed 7 t = ((cfg0.win 7).blk t).view.read (Elt Ideal) (regionArr m c) := by
  show (cfg0.win 7).cut (grid0.coords t) ((dats m 0 c).after 7 t) = _
  rw [after0_7]
  funext y
  have hN : cfg0.N = 16 := N_0
  have ht : t.val < 16 := by have := t.isLt; omega
  obtain ⟨-, -, -, -, -, -, -, -, -, -, -, -, -, e7⟩ := idx_facts t
  obtain ⟨r, rfl⟩ : ∃ r : Fin 512, y = ix1 r := ⟨⟨(y 0).val, (y 0).isLt⟩, by funext a; match a with | ⟨0, _⟩ => rfl⟩
  rw [View.read_apply]
  show outsAt0 m c t (ix1 r) = regionArr m c (((cfg0.win 7).blk t).view.emb (ix1 r))
  have hemb : ((cfg0.win 7).blk t).view.emb (ix1 r) = ix1 (⟨512 * t.val + r.val, by omega⟩ : Fin 8192) := by
    funext a
    apply Fin.ext
    match a with
    | ⟨0, _⟩ => show win0_7.index t 0 * 512 + 1 * r.val = 512 * t.val + r.val; rw [e7]; omega
  rw [hemb]
  exact point_value m c t r _ rfl

/-- A sample is in point `t`'s block iff it is one of the 512 from `512·t` on. -/
theorem mem_blk (t : Fin cfg0.N) (i : S8192.Idx) :
    i ∈ ((cfg0.win 7).blk t).view.set
      ↔ ∀ a : Fin 1, win0_7.index t a * S512.size a ≤ (i a).val ∧ (i a).val < win0_7.index t a * S512.size a + S512.size a := by
  show i ∈ ((View.whole main_v6).slice (win0_7.rect t)).set ↔ _
  rw [View.set_slice_whole, Rect.mem_set_unit]
  exact Iff.rfl

/-- Every sample is in the block of the point `sample / 512`. -/
theorem covered (i : S8192.Idx) : ∃ t : Fin cfg0.N, (cfg0.win 7).flush t = true ∧ i ∈ ((cfg0.win 7).blk t).view.set := by
  have hN : cfg0.N = 16 := N_0
  have hi : (i 0).val < 8192 := (i 0).isLt
  refine ⟨⟨(i 0).val / 512, by omega⟩, flush0_7 _, ?_⟩
  rw [mem_blk]
  obtain ⟨-, -, -, -, -, -, -, -, -, -, -, -, -, e7⟩ := idx_facts ⟨(i 0).val / 512, by omega⟩
  intro a
  match a with
  | ⟨0, _⟩ =>
    show win0_7.index ⟨(i 0).val / 512, _⟩ 0 * 512 ≤ (i 0).val ∧ (i 0).val < win0_7.index ⟨(i 0).val / 512, _⟩ 0 * 512 + 512
    rw [e7]
    show (i 0).val / 512 * 512 ≤ (i 0).val ∧ (i 0).val < (i 0).val / 512 * 512 + 512
    omega

/-- The output array after the region: the blend of every sample. -/
theorem final (c : Dev nD) : (dats m 0 c).arrAt 7 cfg0.N = regionArr m c :=
  (dats m 0 c).arrAt_eq_of_cover 7 (regionArr m c) (fun t _ => flushed_eq m c t) covered

/-! ## The output bias, broadcast -/

/-- The output bias broadcast over the samples, read at any sample, is the output bias. -/
theorem obias_apply (x : S1.Idx → EReal) (b : Fin 8192) :
    broadcastInDim S8192 ![] bcast_S_S8192 (shapeCast S_ x shapeCasts_S1_S_) (ix1 b) = x (ix1 (0 : Fin 1)) := by
  refine (broadcastInDim_apply ![] bcast_S_S8192 _ (ix1 b) ix0 fun a => a.elim0).trans ?_
  refine shapeCast_apply x shapeCasts_S1_S_ ix0 (ix1 (0 : Fin 1)) ?_
  rw [Shape.rowMajor_val_one]
  exact (Shape.rowMajorPi_zero _ _).symm

end Cert.KernelIdeal.Hand.Arr

namespace Cert.KernelIdeal.Hand

open Idealize.ShloMosaic Idealize.ShloMosaic.ValueIdx Idealize.ShloMosaic.TcCoe Idealize.SL.Sem
open Cert.KernelIdeal Cert.KernelIdeal.Gen Cert.Nnue
open Cert.KernelIdeal.Hand.Arr

variable (m : (ℓ : Loc nD τ sig) → Buf (Elt Ideal) ℓ)

/-! ## The host lines after the region -/

/-- What the host lines after the region leave in the program's result buffer: the network's output for every sample,
    arranged as counts and four dot products, of the argument arrays as launched. -/
theorem tail_value (c : Dev nD) :
    Pipeline.afterTail₀ cfgs (dats m) 0 (V0 m) [hostOps1] c main_v9
      = GkArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Pipeline.afterTail₀
  show StableHlo.after hostOps1 _ (Proc.devRef .tc main_v9) = _
  after_results
  have h6 : Pipeline.withArrays (cfgs 0).spec c (V0 m c) (fun w => (dats m 0 c).arrAt w (cfgs 0).N) (Proc.devRef .tc main_v6)
      = regionArr m c :=
    (Pipeline.withArrays_arr spec0 launch0.win.arr_inj c (V0 m c) (fun w => (dats m 0 c).arrAt w cfg0.N) 7).trans (final m c)
  have hob : Pipeline.withArrays (cfgs 0).spec c (V0 m c) (fun w => (dats m 0 c).arrAt w (cfgs 0).N) (Proc.devRef .tc main_arg6)
      = m ((c.tc : Thread nD τ).loc main_arg6) :=
    (Pipeline.withArrays_of_ne spec0 c (V0 m c) (fun w => (dats m 0 c).arrAt w cfg0.N) main_arg6
      (by exact (by decide : ∀ w, Pipeline.arrRef spec0 w ≠ main_arg6))).trans (V_main_arg6 m c)
  rw [h6, hob]
  show addf (regionArr m c) (broadcastInDim S8192 ![] bcast_S_S8192
    (shapeCast S_ (m ((c.tc : Thread nD τ).loc main_arg6) : S1.Idx → EReal) shapeCasts_S1_S_)) = _
  funext i
  obtain ⟨b, rfl⟩ : ∃ b : Fin 8192, i = ix1 b := ⟨⟨(i 0).val, (i 0).isLt⟩, by funext a; match a with | ⟨0, _⟩ => rfl⟩
  show regionArr m c (ix1 b) + broadcastInDim S8192 ![] bcast_S_S8192
    (shapeCast S_ (m ((c.tc : Thread nD τ).loc main_arg6) : S1.Idx → EReal) shapeCasts_S1_S_) (ix1 b) = _
  rw [obias_apply]
  rfl

end Cert.KernelIdeal.Hand

end
-- ==== Proof.RefTerm.lean ====
/-
  The reference program's result as ONE pure term of its seven argument arrays, written stage by stage in the order of its
  host operations (each outlined function at its call site):
    * `validMask`  — which feature words are non-negative (the reference's validity mask);
    * `safeIdx`    — the words clipped below at zero (the row numbers the lookup is made with);
    * `takeRows`   — the table lookup: a negative row number wrapped by the table's height, rows outside 0 … 767 filled
                      with the not-a-number word, all others gathered from the weight table;
    * `accum`      — bias plus, over the 32 slots, the looked-up row times the validity mask read as a float;
    * `screlu`     — clip to [0, 1] (a maximum with 0, then a minimum with 1) and square;
    * `outStage`   — both sides' activations blended by the side to move into the "us" and "them" vectors, laid end to
                      end, multiplied by the output weight, summed over the 2048 positions, plus the output bias;
    * `refOut`     — `outStage` of the two sides' `screlu (accum …)`.
  Nothing is proved here; the run of the program is shown to end at this term, and this term is read index by index, in
  two other modules.
-/
import proofs.«429867_j52037823758706_3_alg».proof.ReferenceIdeal

noncomputable section

namespace Cert.ReferenceIdeal.Hand

open Idealize.ShloMosaic Cert.ReferenceIdeal

variable {F : FTy → Type} [FloatOps F] [Facts]
open Facts₀ Facts

/-- Which feature words are non-negative. -/
def validMask (feat : IVec S8192x32 32) : IVec S8192x32 1 :=
  cmpi .sge feat (broadcastInDim S8192x32 ![] bcast_S_S8192x32 (constantI S_ 32 0#32))

/-- The feature words clipped below at zero. -/
def safeIdx (feat : IVec S8192x32 32) : IVec S8192x32 32 :=
  maxsi (broadcastInDim S8192x32 ![] bcast_S_S8192x32 (constantI S_ 32 0#32)) feat

/-- The row numbers the gather is made with: a negative one wrapped by the table's height, then given a unit axis. -/
def wrapIdx (idx : IVec S8192x32 32) : IVec S8192x32x1 32 :=
  broadcastInDim S8192x32x1 ![0, 1] bcast_S8192x32_S8192x32x1_0_1
    (select (cmpi .slt idx (broadcastInDim S8192x32 ![] bcast_S_S8192x32 (constantI S_ 32 0#32)))
      (addi idx (broadcastInDim S8192x32 ![] bcast_S_S8192x32 (constantI S_ 32 768#32))) idx)

/-- Which wrapped row numbers lie in 0 … 767. -/
def inRange (j3 : IVec S8192x32x1 32) : IVec S8192x32 1 :=
  Host.reduce IntOp.andi
    (andi (cmpi .sge j3 (broadcastInDim S8192x32x1 ![] bcast_S_S8192x32x1 (constantI S_ 32 0#32)))
      (cmpi .sle j3 (broadcastInDim S8192x32x1 ![0, 1, 2] bcast_S1x1x1_S8192x32x1_0_1_2
        (broadcastInDim S1x1x1 ![2] bcast_S1_S1x1x1_2 (constantI S1 32 767#32)))))
    (constantI S_ 1 1#1) reducesTo_S8192x32x1_S8192x32_d2 h_S_

/-- The table lookup with out-of-range rows filled by the not-a-number word. -/
def takeRows (W : FVec F S768x1024 .f32) (idx : IVec S8192x32 32) : FVec F S8192x32x1024 .f32 :=
  select (broadcastInDim S8192x32x1024 ![0, 1] bcast_S8192x32_S8192x32x1024_0_1 (inRange (wrapIdx idx)))
    (Host.gather gather_S768x1024_S8192x32x1_S8192x32x1024_2_0_n_n_0_2_11024 W (wrapIdx idx))
    (broadcastInDim S8192x32x1024 ![] bcast_S_S8192x32x1024 (constant S_ .f32 0x7FC00000#32))

/-- Bias plus the masked looked-up rows summed over the 32 slots. -/
def accum (feat : IVec S8192x32 32) (W : FVec F S768x1024 .f32) (bias : FVec F S1024 .f32) : FVec F S8192x1024 .f32 :=
  addf (broadcastInDim S8192x1024 ![0, 1] bcast_S1x1024_S8192x1024_0_1 (broadcastInDim S1x1024 ![1] bcast_S1024_S1x1024_1 bias))
    (Host.reduceAdd
      (mulf (takeRows W (safeIdx feat))
        (broadcastInDim S8192x32x1024 ![0, 1, 2] bcast_S8192x32x1_S8192x32x1024_0_1_2
          (uitofp .f32 (broadcastInDim S8192x32x1 ![0, 1] bcast_S8192x32_S8192x32x1_0_1 (validMask feat)))))
      (constant S_ .f32 0x00000000#32) reducesTo_S8192x32x1024_S8192x1024_d1 h_S_)

/-- Clip to [0, 1], then square. -/
def screlu (x : FVec F S8192x1024 .f32) : FVec F S8192x1024 .f32 :=
  mulf
    (minimumf (broadcastInDim S8192x1024 ![] bcast_S_S8192x1024 (constant S_ .f32 0x3F800000#32))
      (maximumf (broadcastInDim S8192x1024 ![] bcast_S_S8192x1024 (constant S_ .f32 0x00000000#32)) x))
    (minimumf (broadcastInDim S8192x1024 ![] bcast_S_S8192x1024 (constant S_ .f32 0x3F800000#32))
      (maximumf (broadcastInDim S8192x1024 ![] bcast_S_S8192x1024 (constant S_ .f32 0x00000000#32)) x))

/-- The side to move as a column of floats. -/
def sideCol (stm : IVec S8192 32) : FVec F S8192x1 .f32 :=
  broadcastInDim S8192x1 ![0] bcast_S8192_S8192x1_0 (sitofp .f32 stm)

/-- One minus the side to move, as a column. -/
def oneMinus (stm : IVec S8192 32) : FVec F S8192x1 .f32 :=
  subf (broadcastInDim S8192x1 ![] bcast_S_S8192x1 (constant S_ .f32 0x3F800000#32)) (sideCol (F := F) stm)

/-- `a` weighted by one minus the side to move plus `b` weighted by the side to move, hidden unit by hidden unit. -/
def mix (a b : FVec F S8192x1024 .f32) (stm : IVec S8192 32) : FVec F S8192x1024 .f32 :=
  addf (mulf a (broadcastInDim S8192x1024 ![0, 1] bcast_S8192x1_S8192x1024_0_1 (oneMinus (F := F) stm)))
    (mulf b (broadcastInDim S8192x1024 ![0, 1] bcast_S8192x1_S8192x1024_0_1 (sideCol (F := F) stm)))

/-- From the two activations to the result: blend, lay end to end, one dot product with the output weight, plus the
    output bias. -/
def outStage (wa ba : FVec F S8192x1024 .f32) (a2 : IVec S8192 32) (a5 : FVec F S2048 .f32) (a6 : FVec F S1 .f32) :
    FVec F S8192 .f32 :=
  addf
    (Host.reduceAdd
      (mulf
        (concatenate S8192x2048 1
          [⟨S8192x1024, mix wa ba a2⟩,
           ⟨S8192x1024, mix ba wa a2⟩]
          concatenates_S8192x1024_S8192x1024_S8192x2048_d1)
        (broadcastInDim S8192x2048 ![0, 1] bcast_S1x2048_S8192x2048_0_1 (broadcastInDim S1x2048 ![1] bcast_S2048_S1x2048_1 a5)))
      (constant S_ .f32 0x00000000#32) reducesTo_S8192x2048_S8192_d1 h_S_)
    (broadcastInDim S8192 ![] bcast_S_S8192 (shapeCast S_ a6 shapeCasts_S1_S_))

/-- The reference's result array. -/
def refOut (a0 a1 : IVec S8192x32 32) (a2 : IVec S8192 32) (a3 : FVec F S768x1024 .f32) (a4 : FVec F S1024 .f32)
    (a5 : FVec F S2048 .f32) (a6 : FVec F S1 .f32) : FVec F S8192 .f32 :=
  outStage (screlu (accum a0 a3 a4)) (screlu (accum a1 a3 a4)) a2 a5 a6

end Cert.ReferenceIdeal.Hand

end
-- ==== Proof.RefRun.lean ====
/-
  The reference program's run: its host operations listed in order (each outlined function's operations at its call site),
  and the fact that every weakly fair execution terminates with the result buffer at the composed term `refOut` of the
  argument arrays as launched, the argument arrays unchanged.

  The 123 operations are listed in four stretches — the first side's 48 (mask, clip, lookup, masked sum plus bias, clip to
  [0, 1], square), the second side's 48, the blend's 18, the last 9 (lay end to end, dot product with the output weight, output
  bias) — and the fold of the whole line is the fold of each stretch over the one before. Each stretch's fold is read at the
  few buffers later stretches read, as the stage of the composed term it computes; the stages compose to `refOut` by
  unfolding its definition.
-/
import proofs.«429867_j52037823758706_3_alg».proof.Proof.Gen.ReferenceIdeal
import proofs.«429867_j52037823758706_3_alg».proof.Proof.RefTerm
import Idealize.ShloMosaic.Lib.StableHlo.Run

noncomputable section

namespace Cert.ReferenceIdeal.Hand.Run

open Cert.ReferenceIdeal Cert.ReferenceIdeal.Gen Idealize.ShloMosaic Idealize.ShloMosaic.TcCoe Idealize.SL.Sem Idealize.ShloMosaic.StableHlo

variable {F : FTy → Type} [FloatOps F]

/-- Two lists of operations run one after the other: the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- A property of every operation of two lists holds of their concatenation. -/
theorem forall_app {p : HloOp τ sig (Elt F) → Prop} {l₁ l₂ : List (HloOp τ sig (Elt F))}
    (h₁ : l₁.Forall p) (h₂ : l₂.Forall p) : (l₁ ++ l₂).Forall p :=
  List.forall_iff_forall_mem.2 fun op h => (List.mem_append.1 h).elim
    (List.forall_iff_forall_mem.1 h₁ op) (List.forall_iff_forall_mem.1 h₂ op)

/-- The first side's 48 operations: the validity mask of the first feature array, its words clipped below at zero
    (the clip's three operations), the table lookup (its twenty-three, the select of the wrap among them), the masked sum over the
    32 slots plus the bias, the clip to [0, 1] (its six) and the square. -/
abbrev opsA : List (HloOp τ sig (Elt F)) :=
  [ StableHlo.nullary main_c (constantI S_ 32 0#32),
    StableHlo.unary main_c main_v0 (broadcastInDim S8192x32 ![] bcast_S_S8192x32 : (⟨S_, .i32⟩ : BufTy).Contents (Elt F) → (⟨S8192x32, .i32⟩ : BufTy).Contents (Elt F)),
    StableHlo.binary main_arg0 main_v0 main_v1 (cmpi .sge : (⟨S8192x32, .i32⟩ : BufTy).Contents (Elt F) → (⟨S8192x32, .i32⟩ : BufTy).Contents (Elt F) → (⟨S8192x32, .i1⟩ : BufTy).Contents (Elt F)),
    StableHlo.nullary main_c_0 (constantI S_ 32 0#32),
    StableHlo.TRef.unary (.of main_c_0 : StableHlo.TRef sig ⟨S_, .i32⟩) main_call0.v0 id,
    StableHlo.TRef.unary main_call0.v0 main_call0.v1 (broadcastInDim S8192x32 ![] bcast_S_S8192x32),
    StableHlo.TRef.binary main_call0.v1 (.of main_arg0 : StableHlo.TRef sig ⟨S8192x32, .i32⟩) main_call0.v2 maxsi,
    StableHlo.TRef.nullary main_call1.c (constantI S_ 32 0#32),
    StableHlo.TRef.unary main_call1.c main_call1.v0 (broadcastInDim S8192x32 ![] bcast_S_S8192x32),
    StableHlo.TRef.binary (.of main_v2 : StableHlo.TRef sig ⟨S8192x32, .i32⟩) main_call1.v0 main_call1.v1 (cmpi .slt),
    StableHlo.TRef.nullary main_call1.c_0 (constantI S_ 32 768#32),
    StableHlo.TRef.unary main_call1.c_0 main_call1.v2 (broadcastInDim S8192x32 ![] bcast_S_S8192x32),
    StableHlo.TRef.binary (.of main_v2 : StableHlo.TRef sig ⟨S8192x32, .i32⟩) main_call1.v2 main_call1.v3 addi,
    StableHlo.TRef.ternary main_call1.v1 main_call1.v3 (.of main_v2 : StableHlo.TRef sig ⟨S8192x32, .i32⟩) main_call1.call0.v0 select,
    StableHlo.TRef.unary main_call1.call0.v0 main_call1.v5 (broadcastInDim S8192x32x1 ![0, 1] bcast_S8192x32_S8192x32x1_0_1),
    StableHlo.TRef.nullary main_call1.c_1 (constantI S1 32 767#32),
    StableHlo.TRef.nullary main_call1.c_2 (constantI S_ 32 0#32),
    StableHlo.TRef.unary main_call1.c_2 main_call1.v6 (broadcastInDim S8192x32x1 ![] bcast_S_S8192x32x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S8192x32x1 ![0, 1, 2] bcast_S1x1x1_S8192x32x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8192x32x1_S8192x32_d2 h_S_),
    StableHlo.TRef.binary (.of main_arg3 : StableHlo.TRef sig ⟨S768x1024, .f32⟩) main_call1.v5 main_call1.v13 (fun x i => Host.gather gather_S768x1024_S8192x32x1_S8192x32x1024_2_0_n_n_0_2_11024 x i),
    StableHlo.TRef.unary main_call1.v12 main_call1.v14 (broadcastInDim S8192x32x1024 ![0, 1] bcast_S8192x32_S8192x32x1024_0_1),
    StableHlo.TRef.nullary main_call1.cst (constant S_ .f32 0x7FC00000#32),
    StableHlo.TRef.unary main_call1.cst main_call1.v15 (broadcastInDim S8192x32x1024 ![] bcast_S_S8192x32x1024),
    StableHlo.TRef.ternary main_call1.v14 main_call1.v13 main_call1.v15 main_call1.v16 select,
    StableHlo.unary main_v1 main_v4 (broadcastInDim S8192x32x1 ![0, 1] bcast_S8192x32_S8192x32x1_0_1 : (⟨S8192x32, .i1⟩ : BufTy).Contents (Elt F) → (⟨S8192x32x1, .i1⟩ : BufTy).Contents (Elt F)),
    StableHlo.unary main_v4 main_v5 (uitofp .f32 : (⟨S8192x32x1, .i1⟩ : BufTy).Contents (Elt F) → (⟨S8192x32x1, .f32⟩ : BufTy).Contents (Elt F)),
    StableHlo.unary main_v5 main_v6 (broadcastInDim S8192x32x1024 ![0, 1, 2] bcast_S8192x32x1_S8192x32x1024_0_1_2 : (⟨S8192x32x1, .f32⟩ : BufTy).Contents (Elt F) → (⟨S8192x32x1024, .f32⟩ : BufTy).Contents (Elt F)),
    StableHlo.binary main_v3 main_v6 main_v7 (mulf : (⟨S8192x32x1024, .f32⟩ : BufTy).Contents (Elt F) → (⟨S8192x32x1024, .f32⟩ : BufTy).Contents (Elt F) → (⟨S8192x32x1024, .f32⟩ : BufTy).Contents (Elt F)),
    StableHlo.unary main_arg4 main_v8 (broadcastInDim S1x1024 ![1] bcast_S1024_S1x1024_1 : (⟨S1024, .f32⟩ : BufTy).Contents (Elt F) → (⟨S1x1024, .f32⟩ : BufTy).Contents (Elt F)),
    StableHlo.nullary main_cst (constant S_ .f32 0x00000000#32),
    StableHlo.binary main_v7 main_cst main_v9 ((fun x v => Host.reduceAdd x v reducesTo_S8192x32x1024_S8192x1024_d1 h_S_) : (⟨S8192x32x1024, .f32⟩ : BufTy).Contents (Elt F) → (⟨S_, .f32⟩ : BufTy).Contents (Elt F) → (⟨S8192x1024, .f32⟩ : BufTy).Contents (Elt F)),
    StableHlo.unary main_v8 main_v10 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v10 main_v9 main_v11 (addf : (⟨S8192x1024, .f32⟩ : BufTy).Contents (Elt F) → (⟨S8192x1024, .f32⟩ : BufTy).Contents (Elt F) → (⟨S8192x1024, .f32⟩ : BufTy).Contents (Elt F)),
    StableHlo.nullary main_cst_1 (constant S_ .f32 0x00000000#32),
    StableHlo.nullary main_cst_2 (constant S_ .f32 0x3F800000#32),
    StableHlo.TRef.unary (.of main_cst_1 : StableHlo.TRef sig ⟨S_, .f32⟩) main_call2.v0 id,
    StableHlo.TRef.unary main_call2.v0 main_call2.v1 (broadcastInDim S8192x1024 ![] bcast_S_S8192x1024),
    StableHlo.TRef.binary main_call2.v1 (.of main_v11 : StableHlo.TRef sig ⟨S8192x1024, .f32⟩) main_call2.v2 maximumf,
    StableHlo.TRef.unary (.of main_cst_2 : StableHlo.TRef sig ⟨S_, .f32⟩) main_call2.v3 id,
    StableHlo.TRef.unary main_call2.v3 main_call2.v4 (broadcastInDim S8192x1024 ![] bcast_S_S8192x1024),
    StableHlo.TRef.binary main_call2.v4 main_call2.v2 main_call2.v5 minimumf,
    StableHlo.binary main_v12 main_v12 main_v13 (mulf : (⟨S8192x1024, .f32⟩ : BufTy).Contents (Elt F) → (⟨S8192x1024, .f32⟩ : BufTy).Contents (Elt F) → (⟨S8192x1024, .f32⟩ : BufTy).Contents (Elt F)) ]

/-- The second side's 48 operations: the same over the second feature array. -/
abbrev opsB : List (HloOp τ sig (Elt F)) :=
  [ StableHlo.nullary main_c_3 (constantI S_ 32 0#32),
    StableHlo.unary main_c_3 main_v14 (broadcastInDim S8192x32 ![] bcast_S_S8192x32 : (⟨S_, .i32⟩ : BufTy).Contents (Elt F) → (⟨S8192x32, .i32⟩ : BufTy).Contents (Elt F)),
    StableHlo.binary main_arg1 main_v14 main_v15 (cmpi .sge : (⟨S8192x32, .i32⟩ : BufTy).Contents (Elt F) → (⟨S8192x32, .i32⟩ : BufTy).Contents (Elt F) → (⟨S8192x32, .i1⟩ : BufTy).Contents (Elt F)),
    StableHlo.nullary main_c_4 (constantI S_ 32 0#32),
    StableHlo.TRef.unary (.of main_c_4 : StableHlo.TRef sig ⟨S_, .i32⟩) main_call3.v0 id,
    StableHlo.TRef.unary main_call3.v0 main_call3.v1 (broadcastInDim S8192x32 ![] bcast_S_S8192x32),
    StableHlo.TRef.binary main_call3.v1 (.of main_arg1 : StableHlo.TRef sig ⟨S8192x32, .i32⟩) main_call3.v2 maxsi,
    StableHlo.TRef.nullary main_call4.c (constantI S_ 32 0#32),
    StableHlo.TRef.unary main_call4.c main_call4.v0 (broadcastInDim S8192x32 ![] bcast_S_S8192x32),
    StableHlo.TRef.binary (.of main_v16 : StableHlo.TRef sig ⟨S8192x32, .i32⟩) main_call4.v0 main_call4.v1 (cmpi .slt),
    StableHlo.TRef.nullary main_call4.c_0 (constantI S_ 32 768#32),
    StableHlo.TRef.unary main_call4.c_0 main_call4.v2 (broadcastInDim S8192x32 ![] bcast_S_S8192x32),
    StableHlo.TRef.binary (.of main_v16 : StableHlo.TRef sig ⟨S8192x32, .i32⟩) main_call4.v2 main_call4.v3 addi,
    StableHlo.TRef.ternary main_call4.v1 main_call4.v3 (.of main_v16 : StableHlo.TRef sig ⟨S8192x32, .i32⟩) main_call4.call0.v0 select,
    StableHlo.TRef.unary main_call4.call0.v0 main_call4.v5 (broadcastInDim S8192x32x1 ![0, 1] bcast_S8192x32_S8192x32x1_0_1),
    StableHlo.TRef.nullary main_call4.c_1 (constantI S1 32 767#32),
    StableHlo.TRef.nullary main_call4.c_2 (constantI S_ 32 0#32),
    StableHlo.TRef.unary main_call4.c_2 main_call4.v6 (broadcastInDim S8192x32x1 ![] bcast_S_S8192x32x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S8192x32x1 ![0, 1, 2] bcast_S1x1x1_S8192x32x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S8192x32x1_S8192x32_d2 h_S_),
    StableHlo.TRef.binary (.of main_arg3 : StableHlo.TRef sig ⟨S768x1024, .f32⟩) main_call4.v5 main_call4.v13 (fun x i => Host.gather gather_S768x1024_S8192x32x1_S8192x32x1024_2_0_n_n_0_2_11024 x i),
    StableHlo.TRef.unary main_call4.v12 main_call4.v14 (broadcastInDim S8192x32x1024 ![0, 1] bcast_S8192x32_S8192x32x1024_0_1),
    StableHlo.TRef.nullary main_call4.cst (constant S_ .f32 0x7FC00000#32),
    StableHlo.TRef.unary main_call4.cst main_call4.v15 (broadcastInDim S8192x32x1024 ![] bcast_S_S8192x32x1024),
    StableHlo.TRef.ternary main_call4.v14 main_call4.v13 main_call4.v15 main_call4.v16 select,
    StableHlo.unary main_v15 main_v18 (broadcastInDim S8192x32x1 ![0, 1] bcast_S8192x32_S8192x32x1_0_1 : (⟨S8192x32, .i1⟩ : BufTy).Contents (Elt F) → (⟨S8192x32x1, .i1⟩ : BufTy).Contents (Elt F)),
    StableHlo.unary main_v18 main_v19 (uitofp .f32 : (⟨S8192x32x1, .i1⟩ : BufTy).Contents (Elt F) → (⟨S8192x32x1, .f32⟩ : BufTy).Contents (Elt F)),
    StableHlo.unary main_v19 main_v20 (broadcastInDim S8192x32x1024 ![0, 1, 2] bcast_S8192x32x1_S8192x32x1024_0_1_2 : (⟨S8192x32x1, .f32⟩ : BufTy).Contents (Elt F) → (⟨S8192x32x1024, .f32⟩ : BufTy).Contents (Elt F)),
    StableHlo.binary main_v17 main_v20 main_v21 (mulf : (⟨S8192x32x1024, .f32⟩ : BufTy).Contents (Elt F) → (⟨S8192x32x1024, .f32⟩ : BufTy).Contents (Elt F) → (⟨S8192x32x1024, .f32⟩ : BufTy).Contents (Elt F)),
    StableHlo.unary main_arg4 main_v22 (broadcastInDim S1x1024 ![1] bcast_S1024_S1x1024_1 : (⟨S1024, .f32⟩ : BufTy).Contents (Elt F) → (⟨S1x1024, .f32⟩ : BufTy).Contents (Elt F)),
    StableHlo.nullary main_cst_5 (constant S_ .f32 0x00000000#32),
    StableHlo.binary main_v21 main_cst_5 main_v23 ((fun x v => Host.reduceAdd x v reducesTo_S8192x32x1024_S8192x1024_d1 h_S_) : (⟨S8192x32x1024, .f32⟩ : BufTy).Contents (Elt F) → (⟨S_, .f32⟩ : BufTy).Contents (Elt F) → (⟨S8192x1024, .f32⟩ : BufTy).Contents (Elt F)),
    StableHlo.unary main_v22 main_v24 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v24 main_v23 main_v25 (addf : (⟨S8192x1024, .f32⟩ : BufTy).Contents (Elt F) → (⟨S8192x1024, .f32⟩ : BufTy).Contents (Elt F) → (⟨S8192x1024, .f32⟩ : BufTy).Contents (Elt F)),
    StableHlo.nullary main_cst_6 (constant S_ .f32 0x00000000#32),
    StableHlo.nullary main_cst_7 (constant S_ .f32 0x3F800000#32),
    StableHlo.TRef.unary (.of main_cst_6 : StableHlo.TRef sig ⟨S_, .f32⟩) main_call5.v0 id,
    StableHlo.TRef.unary main_call5.v0 main_call5.v1 (broadcastInDim S8192x1024 ![] bcast_S_S8192x1024),
    StableHlo.TRef.binary main_call5.v1 (.of main_v25 : StableHlo.TRef sig ⟨S8192x1024, .f32⟩) main_call5.v2 maximumf,
    StableHlo.TRef.unary (.of main_cst_7 : StableHlo.TRef sig ⟨S_, .f32⟩) main_call5.v3 id,
    StableHlo.TRef.unary main_call5.v3 main_call5.v4 (broadcastInDim S8192x1024 ![] bcast_S_S8192x1024),
    StableHlo.TRef.binary main_call5.v4 main_call5.v2 main_call5.v5 minimumf,
    StableHlo.binary main_v26 main_v26 main_v27 (mulf : (⟨S8192x1024, .f32⟩ : BufTy).Contents (Elt F) → (⟨S8192x1024, .f32⟩ : BufTy).Contents (Elt F) → (⟨S8192x1024, .f32⟩ : BufTy).Contents (Elt F)) ]

/-- The blend's 18 operations: the side to move as a column of floats, one minus it, and the two activations weighted
    by them, in both orders. -/
abbrev opsT1 : List (HloOp τ sig (Elt F)) :=
  [ StableHlo.unary main_arg2 main_v28 (sitofp .f32 : (⟨S8192, .i32⟩ : BufTy).Contents (Elt F) → (⟨S8192, .f32⟩ : BufTy).Contents (Elt F)),
    StableHlo.unary main_v28 main_v29 (broadcastInDim S8192x1 ![0] bcast_S8192_S8192x1_0 : (⟨S8192, .f32⟩ : BufTy).Contents (Elt F) → (⟨S8192x1, .f32⟩ : BufTy).Contents (Elt F)),
    StableHlo.nullary main_cst_8 (constant S_ .f32 0x3F800000#32),
    StableHlo.unary main_cst_8 main_v30 (broadcastInDim S8192x1 ![] bcast_S_S8192x1 : (⟨S_, .f32⟩ : BufTy).Contents (Elt F) → (⟨S8192x1, .f32⟩ : BufTy).Contents (Elt F)),
    StableHlo.binary main_v30 main_v29 main_v31 (subf : (⟨S8192x1, .f32⟩ : BufTy).Contents (Elt F) → (⟨S8192x1, .f32⟩ : BufTy).Contents (Elt F) → (⟨S8192x1, .f32⟩ : BufTy).Contents (Elt F)),
    StableHlo.unary main_v31 main_v32 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v13 main_v32 main_v33 (mulf : (⟨S8192x1024, .f32⟩ : BufTy).Contents (Elt F) → (⟨S8192x1024, .f32⟩ : BufTy).Contents (Elt F) → (⟨S8192x1024, .f32⟩ : BufTy).Contents (Elt F)),
    StableHlo.unary main_v29 main_v34 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v27 main_v34 main_v35 (mulf : (⟨S8192x1024, .f32⟩ : BufTy).Contents (Elt F) → (⟨S8192x1024, .f32⟩ : BufTy).Contents (Elt F) → (⟨S8192x1024, .f32⟩ : BufTy).Contents (Elt F)),
    StableHlo.binary main_v33 main_v35 main_v36 (addf : (⟨S8192x1024, .f32⟩ : BufTy).Contents (Elt F) → (⟨S8192x1024, .f32⟩ : BufTy).Contents (Elt F) → (⟨S8192x1024, .f32⟩ : BufTy).Contents (Elt F)),
    StableHlo.nullary main_cst_9 (constant S_ .f32 0x3F800000#32),
    StableHlo.unary main_cst_9 main_v37 (broadcastInDim S8192x1 ![] bcast_S_S8192x1 : (⟨S_, .f32⟩ : BufTy).Contents (Elt F) → (⟨S8192x1, .f32⟩ : BufTy).Contents (Elt F)),
    StableHlo.binary main_v37 main_v29 main_v38 (subf : (⟨S8192x1, .f32⟩ : BufTy).Contents (Elt F) → (⟨S8192x1, .f32⟩ : BufTy).Contents (Elt F) → (⟨S8192x1, .f32⟩ : BufTy).Contents (Elt F)),
    StableHlo.unary main_v38 main_v39 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v27 main_v39 main_v40 (mulf : (⟨S8192x1024, .f32⟩ : BufTy).Contents (Elt F) → (⟨S8192x1024, .f32⟩ : BufTy).Contents (Elt F) → (⟨S8192x1024, .f32⟩ : BufTy).Contents (Elt F)),
    StableHlo.unary main_v29 main_v41 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v13 main_v41 main_v42 (mulf : (⟨S8192x1024, .f32⟩ : BufTy).Contents (Elt F) → (⟨S8192x1024, .f32⟩ : BufTy).Contents (Elt F) → (⟨S8192x1024, .f32⟩ : BufTy).Contents (Elt F)),
    StableHlo.binary main_v40 main_v42 main_v43 (addf : (⟨S8192x1024, .f32⟩ : BufTy).Contents (Elt F) → (⟨S8192x1024, .f32⟩ : BufTy).Contents (Elt F) → (⟨S8192x1024, .f32⟩ : BufTy).Contents (Elt F)) ]

/-- The last 9 operations: the two blends laid end to end, the product with the output weight, the sum over the 2048
    positions, the output bias as a scalar broadcast, the sum. -/
abbrev opsT2 : List (HloOp τ sig (Elt F)) :=
  [ StableHlo.binary main_v36 main_v43 main_v44 ((fun a b => concatenate S8192x2048 1 [⟨S8192x1024, a⟩, ⟨S8192x1024, b⟩] concatenates_S8192x1024_S8192x1024_S8192x2048_d1) : (⟨S8192x1024, .f32⟩ : BufTy).Contents (Elt F) → (⟨S8192x1024, .f32⟩ : BufTy).Contents (Elt F) → (⟨S8192x2048, .f32⟩ : BufTy).Contents (Elt F)),
    StableHlo.unary main_arg5 main_v45 (broadcastInDim S1x2048 ![1] bcast_S2048_S1x2048_1 : (⟨S2048, .f32⟩ : BufTy).Contents (Elt F) → (⟨S1x2048, .f32⟩ : BufTy).Contents (Elt F)),
    StableHlo.unary main_v45 main_v46 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v44 main_v46 main_v47 (mulf : (⟨S8192x2048, .f32⟩ : BufTy).Contents (Elt F) → (⟨S8192x2048, .f32⟩ : BufTy).Contents (Elt F) → (⟨S8192x2048, .f32⟩ : BufTy).Contents (Elt F)),
    StableHlo.nullary main_cst_10 (constant S_ .f32 0x00000000#32),
    StableHlo.binary main_v47 main_cst_10 main_v48 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.reshape main_arg6 main_v49 rfl shapeCasts_S1_S_,
    StableHlo.unary main_v49 main_v50 (broadcastInDim S8192 ![] bcast_S_S8192 : (⟨S_, .f32⟩ : BufTy).Contents (Elt F) → (⟨S8192, .f32⟩ : BufTy).Contents (Elt F)),
    StableHlo.binary main_v48 main_v50 main_v51 (addf : (⟨S8192, .f32⟩ : BufTy).Contents (Elt F) → (⟨S8192, .f32⟩ : BufTy).Contents (Elt F) → (⟨S8192, .f32⟩ : BufTy).Contents (Elt F)) ]

/-- @main's 123 operations, in order. -/
abbrev ops : List (HloOp τ sig (Elt F)) := opsA ++ opsB ++ opsT1 ++ opsT2

set_option maxRecDepth 8192 in
set_option maxHeartbeats 4000000 in
/-- @main is that straight line: the two windows in order, the functions' definitions unfolded at their calls and the
    records at their fields; both sides are one chain of 123 steps once sequencing is re-associated, step under step
    (hence the recursion bound). -/
theorem main_eq (c : Dev nD) : main (F := F) c = seq ops := by
  simp only [main, main_part0, main_part1, fn_clip.body, fn_take.body, fn_where.body, fn_clip_0.body, ops, opsA, opsB, opsT1, opsT2,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., binary_bufs_sub .., unary_bufs_sub .., nullary_bufs_sub ..,
    binary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., binary_bufs_sub .., unary_bufs_sub .., nullary_bufs_sub ..,
    binary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem opsT1_sub : (opsT1 : List (HloOp τ sig (Elt F))).Forall fun op => op.bufs ⊆ tcRefs τ sig :=
  ⟨unary_bufs_sub .., unary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., unary_bufs_sub .., binary_bufs_sub .., unary_bufs_sub .., binary_bufs_sub .., binary_bufs_sub ..⟩

theorem opsT1_fresh : (opsT1 : List (HloOp τ sig (Elt F))).Forall fun op => op.fresh = ∅ :=
  ⟨rfl, rfl, rfl, rfl, rfl, rfl, rfl, rfl, rfl, rfl, rfl, rfl, rfl, rfl, rfl, rfl,
    rfl, rfl⟩

theorem opsT2_sub : (opsT2 : List (HloOp τ sig (Elt F))).Forall fun op => op.bufs ⊆ tcRefs τ sig :=
  ⟨binary_bufs_sub .., unary_bufs_sub .., unary_bufs_sub .., binary_bufs_sub .., nullary_bufs_sub .., binary_bufs_sub ..,
    reshape_bufs_sub .., unary_bufs_sub .., binary_bufs_sub ..⟩

theorem opsT2_fresh : (opsT2 : List (HloOp τ sig (Elt F))).Forall fun op => op.fresh = ∅ :=
  ⟨rfl, rfl, rfl, rfl, rfl, rfl, rfl, rfl, rfl⟩

/-- Every operation touches TensorCore references only. -/
theorem ops_sub : (ops : List (HloOp τ sig (Elt F))).Forall fun op => op.bufs ⊆ tcRefs τ sig :=
  forall_app (forall_app (forall_app opsA_sub opsB_sub) opsT1_sub) opsT2_sub

/-- Every operation determines its results. -/
theorem ops_fresh : ∀ op ∈ (ops : List (HloOp τ sig (Elt F))), op.fresh = ∅ :=
  List.forall_iff_forall_mem.1 (forall_app (forall_app (forall_app opsA_fresh opsB_fresh) opsT1_fresh) opsT2_fresh)

/-! ## What each stretch leaves

Each stretch's fold read at the buffers the later stretches (and the statement) read: the stretch's own result as the
stage of the composed term it computes, over the contents it started from; every argument's buffer, and a result of an
earlier stretch still to be read, as it was. An inlined function's operations move their operands and results along
the identity of the buffers' types, which is erased before the two sides are compared. -/

/-- The first side's operations leave the first activation at the clipped square of the first feature array's sum. -/
theorem afterA_v13 (V : Valuation τ sig (Elt F)) :
    after opsA V (Proc.devRef .tc main_v13) = screlu (accum (V (Proc.devRef .tc main_arg0)) (V (Proc.devRef .tc main_arg3)) (V (Proc.devRef .tc main_arg4))) := by
  after_results_simp
  simp only [TRef.ofBuf, TRef.toBuf, cast_eq]
  rfl

/-- The second side's operations leave the second activation at the clipped square of the second feature array's sum. -/
theorem afterB_v27 (V : Valuation τ sig (Elt F)) :
    after opsB V (Proc.devRef .tc main_v27) = screlu (accum (V (Proc.devRef .tc main_arg1)) (V (Proc.devRef .tc main_arg3)) (V (Proc.devRef .tc main_arg4))) := by
  after_results_simp
  simp only [TRef.ofBuf, TRef.toBuf, cast_eq]
  rfl

/-- The blend's operations leave the "us" vector at the first activation weighted by one minus the side to move plus
    the second weighted by the side to move. -/
theorem afterT1_v36 (V : Valuation τ sig (Elt F)) :
    after opsT1 V (Proc.devRef .tc main_v36) = mix (V (Proc.devRef .tc main_v13)) (V (Proc.devRef .tc main_v27)) (V (Proc.devRef .tc main_arg2)) := by
  after_results_simp
  rfl

/-- … and the "them" vector at the same with the two activations exchanged. -/
theorem afterT1_v43 (V : Valuation τ sig (Elt F)) :
    after opsT1 V (Proc.devRef .tc main_v43) = mix (V (Proc.devRef .tc main_v27)) (V (Proc.devRef .tc main_v13)) (V (Proc.devRef .tc main_arg2)) := by
  after_results_simp
  rfl

/-- The last operations leave the result at the dot product of the two vectors laid end to end with the output weight,
    plus the output bias. -/
theorem afterT2_v51 (V : Valuation τ sig (Elt F)) :
    after opsT2 V (Proc.devRef .tc main_v51)
      = addf
          (Host.reduceAdd
            (mulf
              (concatenate S8192x2048 1
                [⟨S8192x1024, V (Proc.devRef .tc main_v36)⟩,
                 ⟨S8192x1024, V (Proc.devRef .tc main_v43)⟩]
                concatenates_S8192x1024_S8192x1024_S8192x2048_d1)
              (broadcastInDim S8192x2048 ![0, 1] bcast_S1x2048_S8192x2048_0_1
                (broadcastInDim S1x2048 ![1] bcast_S2048_S1x2048_1 (V (Proc.devRef .tc main_arg5)))))
            (constant S_ .f32 0x00000000#32) reducesTo_S8192x2048_S8192_d1 h_S_)
          (broadcastInDim S8192 ![] bcast_S_S8192 (shapeCast S_ (V (Proc.devRef .tc main_arg6)) shapeCasts_S1_S_)) := by
  after_results_simp
  rfl

theorem afterA_keep_arg0 (V : Valuation τ sig (Elt F)) :
    after opsA V (Proc.devRef .tc main_arg0) = V (Proc.devRef .tc main_arg0) := by after_results_simp
theorem afterA_keep_arg1 (V : Valuation τ sig (Elt F)) :
    after opsA V (Proc.devRef .tc main_arg1) = V (Proc.devRef .tc main_arg1) := by after_results_simp
theorem afterA_keep_arg2 (V : Valuation τ sig (Elt F)) :
    after opsA V (Proc.devRef .tc main_arg2) = V (Proc.devRef .tc main_arg2) := by after_results_simp
theorem afterA_keep_arg3 (V : Valuation τ sig (Elt F)) :
    after opsA V (Proc.devRef .tc main_arg3) = V (Proc.devRef .tc main_arg3) := by after_results_simp
theorem afterA_keep_arg4 (V : Valuation τ sig (Elt F)) :
    after opsA V (Proc.devRef .tc main_arg4) = V (Proc.devRef .tc main_arg4) := by after_results_simp
theorem afterA_keep_arg5 (V : Valuation τ sig (Elt F)) :
    after opsA V (Proc.devRef .tc main_arg5) = V (Proc.devRef .tc main_arg5) := by after_results_simp
theorem afterA_keep_arg6 (V : Valuation τ sig (Elt F)) :
    after opsA V (Proc.devRef .tc main_arg6) = V (Proc.devRef .tc main_arg6) := by after_results_simp

theorem afterB_keep_arg0 (V : Valuation τ sig (Elt F)) :
    after opsB V (Proc.devRef .tc main_arg0) = V (Proc.devRef .tc main_arg0) := by after_results_simp
theorem afterB_keep_arg1 (V : Valuation τ sig (Elt F)) :
    after opsB V (Proc.devRef .tc main_arg1) = V (Proc.devRef .tc main_arg1) := by after_results_simp
theorem afterB_keep_arg2 (V : Valuation τ sig (Elt F)) :
    after opsB V (Proc.devRef .tc main_arg2) = V (Proc.devRef .tc main_arg2) := by after_results_simp
theorem afterB_keep_arg3 (V : Valuation τ sig (Elt F)) :
    after opsB V (Proc.devRef .tc main_arg3) = V (Proc.devRef .tc main_arg3) := by after_results_simp
theorem afterB_keep_arg4 (V : Valuation τ sig (Elt F)) :
    after opsB V (Proc.devRef .tc main_arg4) = V (Proc.devRef .tc main_arg4) := by after_results_simp
theorem afterB_keep_arg5 (V : Valuation τ sig (Elt F)) :
    after opsB V (Proc.devRef .tc main_arg5) = V (Proc.devRef .tc main_arg5) := by after_results_simp
theorem afterB_keep_arg6 (V : Valuation τ sig (Elt F)) :
    after opsB V (Proc.devRef .tc main_arg6) = V (Proc.devRef .tc main_arg6) := by after_results_simp
theorem afterB_keep_v13 (V : Valuation τ sig (Elt F)) :
    after opsB V (Proc.devRef .tc main_v13) = V (Proc.devRef .tc main_v13) := by after_results_simp

theorem afterT1_keep_arg0 (V : Valuation τ sig (Elt F)) :
    after opsT1 V (Proc.devRef .tc main_arg0) = V (Proc.devRef .tc main_arg0) := by after_results_simp
theorem afterT1_keep_arg1 (V : Valuation τ sig (Elt F)) :
    after opsT1 V (Proc.devRef .tc main_arg1) = V (Proc.devRef .tc main_arg1) := by after_results_simp
theorem afterT1_keep_arg2 (V : Valuation τ sig (Elt F)) :
    after opsT1 V (Proc.devRef .tc main_arg2) = V (Proc.devRef .tc main_arg2) := by after_results_simp
theorem afterT1_keep_arg3 (V : Valuation τ sig (Elt F)) :
    after opsT1 V (Proc.devRef .tc main_arg3) = V (Proc.devRef .tc main_arg3) := by after_results_simp
theorem afterT1_keep_arg4 (V : Valuation τ sig (Elt F)) :
    after opsT1 V (Proc.devRef .tc main_arg4) = V (Proc.devRef .tc main_arg4) := by after_results_simp
theorem afterT1_keep_arg5 (V : Valuation τ sig (Elt F)) :
    after opsT1 V (Proc.devRef .tc main_arg5) = V (Proc.devRef .tc main_arg5) := by after_results_simp
theorem afterT1_keep_arg6 (V : Valuation τ sig (Elt F)) :
    after opsT1 V (Proc.devRef .tc main_arg6) = V (Proc.devRef .tc main_arg6) := by after_results_simp

theorem afterT2_keep_arg0 (V : Valuation τ sig (Elt F)) :
    after opsT2 V (Proc.devRef .tc main_arg0) = V (Proc.devRef .tc main_arg0) := by after_results_simp
theorem afterT2_keep_arg1 (V : Valuation τ sig (Elt F)) :
    after opsT2 V (Proc.devRef .tc main_arg1) = V (Proc.devRef .tc main_arg1) := by after_results_simp
theorem afterT2_keep_arg2 (V : Valuation τ sig (Elt F)) :
    after opsT2 V (Proc.devRef .tc main_arg2) = V (Proc.devRef .tc main_arg2) := by after_results_simp
theorem afterT2_keep_arg3 (V : Valuation τ sig (Elt F)) :
    after opsT2 V (Proc.devRef .tc main_arg3) = V (Proc.devRef .tc main_arg3) := by after_results_simp
theorem afterT2_keep_arg4 (V : Valuation τ sig (Elt F)) :
    after opsT2 V (Proc.devRef .tc main_arg4) = V (Proc.devRef .tc main_arg4) := by after_results_simp
theorem afterT2_keep_arg5 (V : Valuation τ sig (Elt F)) :
    after opsT2 V (Proc.devRef .tc main_arg5) = V (Proc.devRef .tc main_arg5) := by after_results_simp
theorem afterT2_keep_arg6 (V : Valuation τ sig (Elt F)) :
    after opsT2 V (Proc.devRef .tc main_arg6) = V (Proc.devRef .tc main_arg6) := by after_results_simp

/-! ## The whole line -/

theorem ops_keep_arg0 (V : Valuation τ sig (Elt F)) :
    after ops V (Proc.devRef .tc main_arg0) = V (Proc.devRef .tc main_arg0) := by
  rw [after_app, after_app, after_app, afterT2_keep_arg0, afterT1_keep_arg0, afterB_keep_arg0, afterA_keep_arg0]
theorem ops_keep_arg1 (V : Valuation τ sig (Elt F)) :
    after ops V (Proc.devRef .tc main_arg1) = V (Proc.devRef .tc main_arg1) := by
  rw [after_app, after_app, after_app, afterT2_keep_arg1, afterT1_keep_arg1, afterB_keep_arg1, afterA_keep_arg1]
theorem ops_keep_arg2 (V : Valuation τ sig (Elt F)) :
    after ops V (Proc.devRef .tc main_arg2) = V (Proc.devRef .tc main_arg2) := by
  rw [after_app, after_app, after_app, afterT2_keep_arg2, afterT1_keep_arg2, afterB_keep_arg2, afterA_keep_arg2]
theorem ops_keep_arg3 (V : Valuation τ sig (Elt F)) :
    after ops V (Proc.devRef .tc main_arg3) = V (Proc.devRef .tc main_arg3) := by
  rw [after_app, after_app, after_app, afterT2_keep_arg3, afterT1_keep_arg3, afterB_keep_arg3, afterA_keep_arg3]
theorem ops_keep_arg4 (V : Valuation τ sig (Elt F)) :
    after ops V (Proc.devRef .tc main_arg4) = V (Proc.devRef .tc main_arg4) := by
  rw [after_app, after_app, after_app, afterT2_keep_arg4, afterT1_keep_arg4, afterB_keep_arg4, afterA_keep_arg4]
theorem ops_keep_arg5 (V : Valuation τ sig (Elt F)) :
    after ops V (Proc.devRef .tc main_arg5) = V (Proc.devRef .tc main_arg5) := by
  rw [after_app, after_app, after_app, afterT2_keep_arg5, afterT1_keep_arg5, afterB_keep_arg5, afterA_keep_arg5]
theorem ops_keep_arg6 (V : Valuation τ sig (Elt F)) :
    after ops V (Proc.devRef .tc main_arg6) = V (Proc.devRef .tc main_arg6) := by
  rw [after_app, after_app, after_app, afterT2_keep_arg6, afterT1_keep_arg6, afterB_keep_arg6, afterA_keep_arg6]

/-- The whole line leaves the result at the composed term of the arguments' contents. -/
theorem ops_v51 (V : Valuation τ sig (Elt F)) :
    after ops V (Proc.devRef .tc main_v51)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_app, after_app, after_app, afterT2_v51, afterT1_v36, afterT1_v43, afterT1_keep_arg5, afterT1_keep_arg6,
    afterB_v27, afterB_keep_v13, afterB_keep_arg2, afterB_keep_arg5, afterB_keep_arg6,
    afterA_v13, afterA_keep_arg1, afterA_keep_arg2, afterA_keep_arg3, afterA_keep_arg4, afterA_keep_arg5, afterA_keep_arg6]
  rfl

end Cert.ReferenceIdeal.Hand.Run

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    reference terminates with its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v51).trans (Run.ops_v51 _),
      (h c main_arg0).trans (Run.ops_keep_arg0 _), (h c main_arg1).trans (Run.ops_keep_arg1 _),
      (h c main_arg2).trans (Run.ops_keep_arg2 _), (h c main_arg3).trans (Run.ops_keep_arg3 _),
      (h c main_arg4).trans (Run.ops_keep_arg4 _), (h c main_arg5).trans (Run.ops_keep_arg5 _),
      (h c main_arg6).trans (Run.ops_keep_arg6 _)⟩)
    (run_seq Run.scopedRefs_eq Run.scopedSems_eq defs main (fun _ => Run.ops) Run.main_eq (fun _ => Run.ops_sub) m ρ
      (fun _ => Run.ops_fresh))

end Cert.ReferenceIdeal.Hand

end
-- ==== Proof.RefAccum.lean ====
/-
  One side's activation in the reference, read at a sample and a hidden unit.

  With every feature word below 768: a non-negative word is its own clipped value, a row number in 0 … 767, so the lookup
  gathers that table row and the validity mask reads 1; a negative word clips to 0, the lookup gathers row 0 and the mask
  reads 0, so the product is zero.  In both cases the slot contributes module Spec's `pick`.  The sum over the 32 slots
  starts at zero, the bias is added in front, and the clip and the square are `sq01`.
-/
import proofs.«429867_j52037823758706_3_alg».proof.Proof.Gen.ReferenceIdeal
import proofs.«429867_j52037823758706_3_alg».proof.Proof.RefTerm
import proofs.«429867_j52037823758706_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open scoped BigOperators
open Idealize.ShloMosaic Idealize.ShloMosaic.ValueIdx Cert.ReferenceIdeal Cert.ReferenceIdeal.Gen Cert.Nnue

namespace Accum

/-- A scalar float constant broadcast to any shape reads the extended real its word encodes. -/
theorem bcast_const_apply {t : Shape} (h : S_.BroadcastsInDim t (![] : Fin 0 → Fin t.rank)) (c : BitVec 32) (j : t.Idx) :
    broadcastInDim t ![] h (constant (F := Ideal) S_ .f32 c) j = Ideal.ofBits .f32 c := rfl

/-- The clipped word at (b, k): the larger, as signed numbers, of zero and the feature word. -/
theorem safeIdx_apply (feat : IVec S8192x32 32) (b : Fin 8192) (k : Fin 32) :
    safeIdx feat (ix2 b k) = IntOp.maxsi 0#32 (feat (ix2 b k)) := rfl

/-- The validity mask at (b, k): the bit of "the feature word is at least zero" as signed numbers. -/
theorem validMask_apply (feat : IVec S8192x32 32) (b : Fin 8192) (k : Fin 32) :
    validMask feat (ix2 b k) = IntOp.cmpi .sge (feat (ix2 b k)) 0#32 := rfl

/-- The unit axis added behind a [8192, 32] array reads the array at the first two coordinates. -/
theorem bcast_unit_apply {α : Type} (x : S8192x32.Idx → α) (b : Fin 8192) (k : Fin 32) (c : Fin 1) :
    broadcastInDim S8192x32x1 ![0, 1] Facts₀.bcast_S8192x32_S8192x32x1_0_1 x (ix3 b k c) = x (ix2 b k) := by
  refine broadcastInDim_apply _ _ x _ _ fun a => ?_
  match a with
  | ⟨0, _⟩ => rfl
  | ⟨1, _⟩ => rfl

/-- The row number with its unit axis at (b, k, c): the word plus 768 where it is negative, the word itself otherwise. -/
theorem wrapIdx_apply (idx : IVec S8192x32 32) (b : Fin 8192) (k : Fin 32) (c : Fin 1) :
    wrapIdx idx (ix3 b k c)
      = Scalar.select (IntOp.cmpi .slt (idx (ix2 b k)) 0#32) (IntOp.addi (idx (ix2 b k)) 768#32) (idx (ix2 b k)) := by
  unfold wrapIdx
  rw [bcast_unit_apply]
  rfl

/-- The feature word clipped below at zero: zero for a negative word, the word itself otherwise. -/
theorem maxsi0_cases (x : BitVec 32) :
    (x.toInt < 0 ∧ IntOp.maxsi 0#32 x = 0#32) ∨ (0 ≤ x.toInt ∧ IntOp.maxsi 0#32 x = x) := by
  unfold IntOp.maxsi
  by_cases h : x.toInt < 0
  · left; refine ⟨h, if_pos ?_⟩; simp [BitVec.slt, h]
  · right; refine ⟨not_lt.mp h, if_neg ?_⟩; simp [BitVec.slt, h]

/-- A word below 768 clipped below at zero lies in 0 … 767. -/
theorem maxsi0_range (x : BitVec 32) (hx : x.toInt < 768) :
    0 ≤ (IntOp.maxsi 0#32 x).toInt ∧ (IntOp.maxsi 0#32 x).toInt < 768 := by
  rcases maxsi0_cases x with ⟨h, e⟩ | ⟨h, e⟩
  · rw [e]; simp
  · rw [e]; exact ⟨h, hx⟩

/-- A non-negative word is not below zero. -/
theorem cmpi_slt0_of_nonneg (m : BitVec 32) (h : 0 ≤ m.toInt) : IntOp.cmpi .slt m 0#32 = 0#1 := by
  have h' : ¬ m.toInt < 0 := not_lt.mpr h
  simp [IntOp.cmpi, BitVec.slt, h']

/-- A non-negative word is at least zero. -/
theorem cmpi_sge0_of_nonneg (m : BitVec 32) (h : 0 ≤ m.toInt) : IntOp.cmpi .sge m 0#32 = 1#1 := by
  simp [IntOp.cmpi, BitVec.sle, h]

/-- A negative word is not at least zero. -/
theorem cmpi_sge0_of_neg (m : BitVec 32) (h : m.toInt < 0) : IntOp.cmpi .sge m 0#32 = 0#1 := by
  have h' : ¬ 0 ≤ m.toInt := not_le.mpr h
  simp [IntOp.cmpi, BitVec.sle, h']

/-- A word below 768 is at most 767. -/
theorem cmpi_sle767 (m : BitVec 32) (h : m.toInt < 768) : IntOp.cmpi .sle m 767#32 = 1#1 := by
  have e : (767#32 : BitVec 32).toInt = 767 := by decide
  have hs : m.sle 767#32 = true := by
    simp only [BitVec.sle, decide_eq_true_eq]; rw [e]; omega
  show BitVec.ofBool (m.sle 767#32) = 1#1
  rw [hs]; rfl

/-- A left fold of one-bit "and" from 1 over words that are all 1 ends at 1. -/
theorem foldl_andi_one {ι : Type} (f : ι → BitVec 1) (hf : ∀ i, f i = 1#1) :
    ∀ (l : List ι), l.foldl (fun r n => IntOp.andi r (f n)) 1#1 = 1#1
  | [] => rfl
  | a :: l => by
    have e : IntOp.andi 1#1 1#1 = 1#1 := by decide
    rw [List.foldl_cons, hf a, e]
    exact foldl_andi_one f hf l

/-- A reduction by "and" from the initial value 1 of an array whose every element is 1 reads 1 everywhere. -/
theorem reduce_andi_all_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x hx _

/-- Row numbers that all lie in 0 … 767 are all reported in range. -/
theorem inRange_eq_one (j3 : IVec S8192x32x1 32) (hj : ∀ i, 0 ≤ (j3 i).toInt ∧ (j3 i).toInt < 768) (j : S8192x32.Idx) :
    inRange j3 j = 1#1 := by
  unfold inRange
  refine reduce_andi_all_one _ _ _ _ rfl (fun i => ?_) j
  show IntOp.andi (IntOp.cmpi .sge (j3 i) 0#32) (IntOp.cmpi .sle (j3 i) 767#32) = 1#1
  rw [cmpi_sge0_of_nonneg _ (hj i).1, cmpi_sle767 _ (hj i).2]; rfl

/-- The row number the lookup is made with: the clipped word, which does not wrap. -/
theorem wrapIdx_safeIdx_apply (feat : IVec S8192x32 32) (hf : ∀ (b : Fin 8192) (k : Fin 32), (feat (ix2 b k)).toInt < 768)
    (b : Fin 8192) (k : Fin 32) (c : Fin 1) :
    wrapIdx (safeIdx feat) (ix3 b k c) = IntOp.maxsi 0#32 (feat (ix2 b k)) := by
  rw [wrapIdx_apply, safeIdx_apply, cmpi_slt0_of_nonneg _ (maxsi0_range _ (hf b k)).1, select_zero]

/-- Every row number the lookup is made with lies in 0 … 767. -/
theorem wrapIdx_safeIdx_range (feat : IVec S8192x32 32) (hf : ∀ (b : Fin 8192) (k : Fin 32), (feat (ix2 b k)).toInt < 768)
    (i : S8192x32x1.Idx) : 0 ≤ (wrapIdx (safeIdx feat) i).toInt ∧ (wrapIdx (safeIdx feat) i).toInt < 768 := by
  obtain ⟨b, k, c, rfl⟩ : ∃ (b : Fin 8192) (k : Fin 32) (c : Fin 1), i = ix3 b k c := ⟨i 0, i 1, i 2, eq_ix3 i⟩
  rw [wrapIdx_safeIdx_apply feat hf]
  exact maxsi0_range _ (hf b k)

/-- The lookup's dimension numbers: table [768, 1024], row numbers [8192, 32, 1], result [8192, 32, 1024]. -/
abbrev rowsDims : GatherDims S768x1024 S8192x32x1 S8192x32x1024 :=
  gather_S768x1024_S8192x32x1_S8192x32x1024_2_0_n_n_0_2_11024

/-- The lookup read at (b, k, h): the table at column h of the row whose number is the start index at (b, k, 0), read signed
    and clamped into 0 … 767. -/
theorem gather_rows_apply {α : Type} (W : S768x1024.Idx → α) (idx : IVec S8192x32x1 32) (b : Fin 8192) (k : Fin 32)
    (h : Fin 1024) :
    Host.gather rowsDims W idx (ix3 b k h)
      = W (ix2 (⟨min (idx (ix3 b k (0 : Fin 1))).toInt.toNat 767, by omega⟩ : Fin 768) h) := by
  unfold Host.gather
  congr 1
  funext a
  refine Fin.ext ?_
  match a with
  | ⟨0, _⟩ =>
    show rowsDims.start (ix3 b k h) idx 0 + rowsDims.batchCoord (ix3 b k h) 0 + rowsDims.offCoord (ix3 b k h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ rowsDims.startIndexMap from List.mem_singleton.mpr rfl)]
    have hsi : rowsDims.siIdx (ix3 b k h) ⟨List.idxOf (0 : Fin 2) rowsDims.startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    rfl
  | ⟨1, _⟩ =>
    show rowsDims.start (ix3 b k h) idx 1 + rowsDims.batchCoord (ix3 b k h) 1 + rowsDims.offCoord (ix3 b k h) 1 = _
    rw [GatherDims.batchCoord_eq_zero _ _ _ List.not_mem_nil]
    unfold GatherDims.start
    rw [dif_neg (show (1 : Fin 2) ∉ rowsDims.startIndexMap by decide)]
    unfold GatherDims.offCoord
    rw [dif_pos ((GatherDims.mem_sKept _ _).mpr ⟨by decide, List.not_mem_nil⟩)]
    have e : (rowsDims.offsetDims[List.idxOf (1 : Fin 2) rowsDims.sKept]'(by decide) : Fin 3) = 2 := by decide
    simp only [Nat.zero_add]
    exact congrArg (fun c => (ix3 b k h c).val) e

/-- A [8192, 32] array stretched along a new last axis of 1024 reads the array at the first two coordinates. -/
theorem bcast_slot_apply {α : Type} (x : S8192x32.Idx → α) (b : Fin 8192) (k : Fin 32) (h : Fin 1024) :
    broadcastInDim S8192x32x1024 ![0, 1] Facts₀.bcast_S8192x32_S8192x32x1024_0_1 x (ix3 b k h) = x (ix2 b k) := by
  refine broadcastInDim_apply _ _ x _ _ fun a => ?_
  match a with
  | ⟨0, _⟩ => rfl
  | ⟨1, _⟩ => rfl

/-- A [8192, 32, 1] array stretched along its unit axis to 1024 reads the array at the first two coordinates. -/
theorem bcast_stretch_apply {α : Type} (x : S8192x32x1.Idx → α) (b : Fin 8192) (k : Fin 32) (h : Fin 1024) :
    broadcastInDim S8192x32x1024 ![0, 1, 2] Facts₀.bcast_S8192x32x1_S8192x32x1024_0_1_2 x (ix3 b k h)
      = x (ix3 b k (0 : Fin 1)) := by
  refine broadcastInDim_apply _ _ x _ _ fun a => ?_
  match a with
  | ⟨0, _⟩ => rfl
  | ⟨1, _⟩ => rfl
  | ⟨2, _⟩ => rfl

/-- An unsigned word converted to a float is, over the extended reals, its value. -/
theorem uitofp_apply {s : Shape} {w : Nat} (x : IVec s w) (i : s.Idx) :
    (uitofp .f32 x : FVec Ideal s .f32) i = (((x i).toNat : ℝ) : EReal) := rfl

/-- The looked-up row at (b, k, h): every row number is in range, so the select takes the gathered table entry. -/
theorem takeRows_apply (feat : IVec S8192x32 32) (W : FVec Ideal S768x1024 .f32)
    (hf : ∀ (b : Fin 8192) (k : Fin 32), (feat (ix2 b k)).toInt < 768) (b : Fin 8192) (k : Fin 32) (h : Fin 1024)
    (r : Fin 768) (hr : r.val = min (IntOp.maxsi 0#32 (feat (ix2 b k))).toInt.toNat 767) :
    takeRows W (safeIdx feat) (ix3 b k h) = W (ix2 r h) := by
  unfold takeRows
  rw [select_apply, bcast_slot_apply, inRange_eq_one _ (wrapIdx_safeIdx_range feat hf), select_one]
  refine (gather_rows_apply W _ b k h).trans ?_
  congr 2
  refine Fin.ext ?_
  show min (wrapIdx (safeIdx feat) (ix3 b k (0 : Fin 1))).toInt.toNat 767 = r.val
  rw [hr, wrapIdx_safeIdx_apply feat hf]

/-- A non-negative word below 768 is its own unsigned value, below 768. -/
theorem word_of_nonneg (x : BitVec 32) (h0 : 0 ≤ x.toInt) (hx : x.toInt < 768) :
    x.toNat < 768 ∧ x.toInt.toNat = x.toNat := by
  have hn := x.isLt
  rw [BitVec.toInt_eq_toNat_cond] at h0 hx
  rw [BitVec.toInt_eq_toNat_cond]
  split_ifs at h0 hx ⊢ <;> omega

/-- A negative word, read unsigned, is at least 2^31, so not below 768. -/
theorem word_of_neg (x : BitVec 32) (h0 : x.toInt < 0) : ¬ x.toNat < 768 := by
  have hn := x.isLt
  rw [BitVec.toInt_eq_toNat_cond] at h0
  split_ifs at h0 <;> omega

/-- One slot's product at (b, k, h): the table entry the word names times 1, or row 0's entry times 0. -/
theorem slot_apply (feat : IVec S8192x32 32) (W : FVec Ideal S768x1024 .f32)
    (hf : ∀ (b : Fin 8192) (k : Fin 32), (feat (ix2 b k)).toInt < 768) (b : Fin 8192) (k : Fin 32) (h : Fin 1024) :
    mulf (takeRows W (safeIdx feat))
        (broadcastInDim S8192x32x1024 ![0, 1, 2] Facts₀.bcast_S8192x32x1_S8192x32x1024_0_1_2
          (uitofp .f32 (broadcastInDim S8192x32x1 ![0, 1] Facts₀.bcast_S8192x32_S8192x32x1_0_1 (validMask feat))))
        (ix3 b k h)
      = pick (fun f h' => W (ix2 f h')) (feat (ix2 b k)) h := by
  rw [mulf_apply, bcast_stretch_apply, uitofp_apply, bcast_unit_apply, validMask_apply]
  unfold pick
  rcases maxsi0_cases (feat (ix2 b k)) with ⟨h0, e⟩ | ⟨h0, e⟩
  · rw [cmpi_sge0_of_neg _ h0, if_neg (word_of_neg _ h0)]
    simp
  · obtain ⟨hlt, hnat⟩ := word_of_nonneg _ h0 (hf b k)
    rw [cmpi_sge0_of_nonneg _ h0, if_pos hlt, takeRows_apply feat W hf b k h (col (feat (ix2 b k))) ?_]
    · simp
    · rw [e, hnat]
      show (feat (ix2 b k)).toNat % 768 = _
      omega

/-- The bias, given a leading unit axis and stretched over the samples, reads the bias at the hidden unit. -/
theorem bias_bcast_apply (bias : FVec Ideal S1024 .f32) (b : Fin 8192) (h : Fin 1024) :
    broadcastInDim S8192x1024 ![0, 1] Facts₀.bcast_S1x1024_S8192x1024_0_1
        (broadcastInDim S1x1024 ![1] Facts₀.bcast_S1024_S1x1024_1 bias) (ix2 b h) = bias (ix1 h) := by
  refine (broadcastInDim_apply _ _ _ _ (ix2 (0 : Fin 1) h) fun a => ?_).trans ?_
  · match a with
    | ⟨0, _⟩ => rfl
    | ⟨1, _⟩ => rfl
  · refine broadcastInDim_apply _ _ bias _ _ fun a => ?_
    match a with
    | ⟨0, _⟩ => rfl

/-- The source index over (b, h) with slot k inserted on the summed axis is (b, k, h). -/
theorem lift_slot (hR : S8192x32x1024.Reduces [1] S8192x1024) (b : Fin 8192) (h : Fin 1024) (k : Fin 32) :
    hR.lift (ix2 b h) k = ix3 b k h := by
  funext a
  refine Fin.ext ?_
  match a with
  | ⟨0, _⟩ => rfl
  | ⟨1, _⟩ => rfl
  | ⟨2, _⟩ => rfl

/-- The accumulator at (b, h): the bias plus the 32 slots' picks. -/
theorem accum_apply (feat : IVec S8192x32 32) (W : FVec Ideal S768x1024 .f32) (bias : FVec Ideal S1024 .f32)
    (hf : ∀ (b : Fin 8192) (k : Fin 32), (feat (ix2 b k)).toInt < 768) (b : Fin 8192) (h : Fin 1024) :
    accum (F := Ideal) feat W bias (ix2 b h)
      = accPick (fun k => feat (ix2 b k)) (fun f h' => W (ix2 f h')) (fun h' => bias (ix1 h')) h := by
  have hR : S8192x32x1024.Reduces [1] S8192x1024 := by decide
  unfold accum accPick
  rw [addf_apply, bias_bcast_apply]
  congr 1
  refine (Ideal.hostReduceAdd_single Facts₀.reducesTo_S8192x32x1024_S8192x1024_d1 hR _ _ (ix2 b h)).trans ?_
  rw [show constant (F := Ideal) S_ .f32 0x00000000#32 (Shape.Idx.first Facts₀.h_S_) = 0 from Ideal.ofBits_zero_f32, zero_add]
  show ∑ k : Fin 32, _ = _
  refine Finset.sum_congr rfl fun k _ => ?_
  rw [lift_slot hR b h k]
  exact slot_apply feat W hf b k h

/-- The float pattern 0x3F800000 denotes 1. -/
theorem ofBits_one_f32 : Ideal.ofBits .f32 0x3F800000#32 = 1 := by
  simp [Ideal.ofBits, Ideal.ieee, -EReal.coe_mul]; norm_num

/-- The clip and the square at an index. -/
theorem screlu_apply (x : FVec Ideal S8192x1024 .f32) (j : S8192x1024.Idx) : screlu x j = sq01 (x j) := by
  unfold screlu sq01
  rw [mulf_apply, minimumf_apply, maximumf_apply, bcast_const_apply, bcast_const_apply, ofBits_one_f32, Ideal.ofBits_zero_f32]

end Accum

open Accum

/-- With every feature word below 768, the reference's activation of sample `b` at hidden unit `h` is the clipped and
    squared accumulator by picks. -/
theorem act_apply (feat : IVec S8192x32 32) (W : FVec Ideal S768x1024 .f32) (bias : FVec Ideal S1024 .f32)
    (hf : ∀ (b : Fin 8192) (k : Fin 32), (feat (ix2 b k)).toInt < 768) (b : Fin 8192) (h : Fin 1024) :
    screlu (accum (F := Ideal) feat W bias) (ix2 b h)
      = sq01 (accPick (fun k => feat (ix2 b k)) (fun f h' => W (ix2 f h')) (fun h' => bias (ix1 h')) h) := by
  rw [screlu_apply, accum_apply feat W bias hf]

end Cert.ReferenceIdeal.Hand

end
-- ==== Proof.RefBlend.lean ====
/-
  The reference's last stage read at a sample: the two activation arrays blended by the side to move (one minus the side
  word's value for the first, the value itself for the second; the "them" vector with the roles exchanged), the two
  blended arrays laid end to end along the hidden axis, multiplied entry by entry with the output weight broadcast over
  the samples, summed over the 2048 positions from zero, plus the output bias: module Spec's `blendCat` plus the bias.
-/
import proofs.«429867_j52037823758706_3_alg».proof.Proof.Gen.ReferenceIdeal
import proofs.«429867_j52037823758706_3_alg».proof.Proof.RefTerm
import proofs.«429867_j52037823758706_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Hand

open scoped BigOperators
open Idealize.ShloMosaic Idealize.ShloMosaic.ValueIdx Cert.ReferenceIdeal Cert.ReferenceIdeal.Gen Cert.Nnue

/-- The side-to-move column at row `b`: the side word read as a signed integer. -/
theorem sideCol_apply (a2 : IVec S8192 32) (b : Fin 8192) :
    sideCol (F := Ideal) a2 (ix2 b (0 : Fin 1)) = side (a2 (ix1 b)) := by
  unfold sideCol
  rw [broadcastInDim_apply ![0] _ _ (ix2 b (0 : Fin 1)) (ix1 b) (by
    intro a
    match a with
    | ⟨0, _⟩ => rfl)]
  rfl

/-- One minus the side to move at row `b`. -/
theorem oneMinus_apply (a2 : IVec S8192 32) (b : Fin 8192) :
    oneMinus (F := Ideal) a2 (ix2 b (0 : Fin 1)) = 1 - side (a2 (ix1 b)) := by
  unfold oneMinus
  rw [subf_apply, sideCol_apply, broadcastInDim_scalar_apply, constant_apply, Ideal.ofBits_one_f32]

/-- A column laid along the 1024 hidden units reads, at (b, h), the column at row `b`. -/
theorem bcastCol_apply (c : FVec Ideal S8192x1 .f32) (b : Fin 8192) (h : Fin 1024) :
    broadcastInDim S8192x1024 ![0, 1] bcast_S8192x1_S8192x1024_0_1 c (ix2 b h) = c (ix2 b (0 : Fin 1)) := by
  refine broadcastInDim_apply ![0, 1] _ c (ix2 b h) (ix2 b (0 : Fin 1)) ?_
  intro a
  match a with
  | ⟨0, _⟩ => rfl
  | ⟨1, _⟩ => rfl

/-- The blend at (b, h): the first array weighted by one minus the side to move plus the second weighted by it. -/
theorem mix_apply (x y : FVec Ideal S8192x1024 .f32) (a2 : IVec S8192 32) (b : Fin 8192) (h : Fin 1024) :
    mix (F := Ideal) x y a2 (ix2 b h)
      = x (ix2 b h) * (1 - side (a2 (ix1 b))) + y (ix2 b h) * side (a2 (ix1 b)) := by
  unfold mix
  rw [addf_apply, mulf_apply, mulf_apply, bcastCol_apply, bcastCol_apply, oneMinus_apply, sideCol_apply]

/-- The output weight laid along every sample reads, at (b, j), the weight's entry `j`. -/
theorem owBcast_apply (a5 : FVec Ideal S2048 .f32) (b : Fin 8192) (j : Fin 2048) :
    broadcastInDim S8192x2048 ![0, 1] bcast_S1x2048_S8192x2048_0_1
        (broadcastInDim S1x2048 ![1] bcast_S2048_S1x2048_1 a5) (ix2 b j) = a5 (ix1 j) := by
  rw [broadcastInDim_apply ![0, 1] _ _ (ix2 b j) (ix2 (0 : Fin 1) j) (by
    intro a
    match a with
    | ⟨0, _⟩ => rfl
    | ⟨1, _⟩ => rfl)]
  refine broadcastInDim_apply ![1] _ a5 (ix2 (0 : Fin 1) j) (ix1 j) ?_
  intro a
  match a with
  | ⟨0, _⟩ => rfl

/-- Two arrays of 1024 columns laid end to end along the columns read, at (b, j), module Spec's `cat` of their rows. -/
theorem concat_apply (X Y : FVec Ideal S8192x1024 .f32) (b : Fin 8192) (j : Fin 2048) :
    concatenate S8192x2048 1 [⟨S8192x1024, X⟩, ⟨S8192x1024, Y⟩]
        concatenates_S8192x1024_S8192x1024_S8192x2048_d1 (ix2 b j)
      = cat (fun h => X (ix2 b h)) (fun h => Y (ix2 b h)) j := by
  unfold cat
  by_cases hj : j.val < 1024
  · rw [dif_pos hj]
    refine concatenate_pair_apply_left (1 : Fin 2) X Y _ (ix2 b j) rfl (ix2 b (⟨j.val, hj⟩ : Fin 1024)) ?_
    intro a
    match a with
    | ⟨0, _⟩ => rfl
    | ⟨1, _⟩ => rfl
  · rw [dif_neg hj]
    refine concatenate_pair_apply_right (1 : Fin 2) X Y _ (ix2 b j) rfl rfl
      (ix2 b (⟨j.val - 1024, by have := j.isLt; omega⟩ : Fin 1024)) ?_ ?_
    · intro a ha
      match a, ha with
      | ⟨0, _⟩, _ => rfl
      | ⟨1, _⟩, ha => exact absurd rfl ha
    · show j.val - 1024 + 1024 = j.val
      omega

/-- The sum over the 2048 columns from zero, at sample `b`. -/
theorem rowSum_apply (X : FVec Ideal S8192x2048 .f32) (b : Fin 8192) :
    Host.reduceAdd (F := Ideal) X (constant (F := Ideal) S_ .f32 0x00000000#32) reducesTo_S8192x2048_S8192_d1 h_S_ (ix1 b)
      = ∑ j : Fin 2048, X (ix2 b j) := by
  have hR : S8192x2048.Reduces [1] S8192 := by decide
  rw [hostReduceAdd_apply, Ideal.hostReduceAdd_single _ hR, constant_apply, Ideal.ofBits_zero_f32, zero_add]
  refine Finset.sum_congr rfl fun j _ => ?_
  congr 1
  funext c
  match c with
  | ⟨0, _⟩ => rfl
  | ⟨1, _⟩ => rfl

/-- The output bias, its one entry read as a scalar and laid along every sample. -/
theorem biasBcast_apply (a6 : FVec Ideal S1 .f32) (b : Fin 8192) :
    broadcastInDim S8192 ![] bcast_S_S8192 (shapeCast S_ a6 shapeCasts_S1_S_) (ix1 b) = a6 (ix1 (0 : Fin 1)) := by
  rw [broadcastInDim_scalar_apply]
  exact shapeCast_apply a6 _ ix0 (ix1 (0 : Fin 1)) rfl

/-- The last stage at sample `b`, for any two activation arrays. -/
theorem outStage_apply (wa ba : FVec Ideal S8192x1024 .f32) (a2 : IVec S8192 32) (a5 : FVec Ideal S2048 .f32)
    (a6 : FVec Ideal S1 .f32) (b : Fin 8192) :
    outStage (F := Ideal) wa ba a2 a5 a6 (ix1 b)
      = blendCat (fun h => wa (ix2 b h)) (fun h => ba (ix2 b h)) (side (a2 (ix1 b))) (fun j => a5 (ix1 j))
          + a6 (ix1 (0 : Fin 1)) := by
  unfold outStage blendCat
  rw [addf_apply, rowSum_apply, biasBcast_apply]
  congr 1
  refine Finset.sum_congr rfl fun j _ => ?_
  rw [mulf_apply, concat_apply, owBcast_apply]
  congr 2
  · funext h; exact mix_apply wa ba a2 b h
  · funext h; exact mix_apply ba wa a2 b h

end Cert.ReferenceIdeal.Hand

end
-- ==== Proof.RefRead.lean ====
/-
  The reference's composed term read sample by sample over the extended reals.

  When every feature word is below 768 (as a signed number), the clipped word is a row number in 0 … 767 or, for a
  negative word, 0 with the validity mask at zero: the lookup never meets its not-a-number fill, a non-negative word
  contributes the table row it names and a negative one contributes nothing.  So the accumulator is module Spec's
  `accPick`, the activation `sq01` of it, and the result — the two blended vectors laid end to end against the whole
  output weight, plus the output bias — is `GrArr` of the argument arrays.
-/
import proofs.«429867_j52037823758706_3_alg».proof.Proof.Gen.ReferenceIdeal
import proofs.«429867_j52037823758706_3_alg».proof.Proof.RefTerm
import proofs.«429867_j52037823758706_3_alg».proof.Proof.RefAccum
import proofs.«429867_j52037823758706_3_alg».proof.Proof.RefBlend
import proofs.«429867_j52037823758706_3_alg».proof.Proof.SpecArr
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Cert.Nnue

/-- With every feature word below 768 the reference's result array is the network's output arranged as picks and one
    long dot product. -/
theorem refOut_eq (a0 a1 : IVec S8192x32 32) (a2 : IVec S8192 32) (a3 : FVec Ideal S768x1024 .f32) (a4 : FVec Ideal S1024 .f32)
    (a5 : FVec Ideal S2048 .f32) (a6 : FVec Ideal S1 .f32)
    (h0 : ∀ (b : Fin 8192) (k : Fin 32), (a0 (ix2 b k)).toInt < 768)
    (h1 : ∀ (b : Fin 8192) (k : Fin 32), (a1 (ix2 b k)).toInt < 768) :
    refOut (F := Ideal) a0 a1 a2 a3 a4 a5 a6 = GrArr a0 a1 a2 a3 a4 a5 a6 := by
  funext i
  obtain ⟨b, rfl⟩ : ∃ b : Fin 8192, i = ix1 b := ⟨i 0, eq_ix1 i⟩
  unfold refOut
  rw [outStage_apply]
  simp only [act_apply _ _ _ h0, act_apply _ _ _ h1]
  rfl

end Cert.ReferenceIdeal.Hand

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.Algebra.lean ====
/-
  The two arrangements of the network agree when the weight table and the output weight hold real numbers.

  Two facts carry the proof.
  (A) The accumulator by counts is the accumulator by picks.  The count of a table row is a sum of indicators, each
      zero or one, so it is a real number and the table entry (a real number) moves inside the sum; exchanging the
      two sums leaves, for each feature word, the sum over table rows of indicator times entry.  A word below 768
      is the number of exactly one table row, so that sum has the single term the word picks; any other word is the
      number of no row and the sum is zero.
  (B) Four dot products blended afterwards are one long dot product of the blended vectors.  The sum over 2048 splits
      into its two halves of 1024; the activations, the side to move and the output weight being real numbers, the
      rest is the distributive law in the real numbers.
  The activation is a square of a number clipped to [0, 1], hence always a real number.
-/
import proofs.«429867_j52037823758706_3_alg».proof.Proof.Spec
import proofs.«429867_j52037823758706_3_alg».proof.Proof.LibExtReal

noncomputable section

namespace Cert.Nnue

open scoped BigOperators
open Cert.ExtReal

/-- A word is the 32-bit number of table row f exactly when, read unsigned, it is f (f is below 768, far below 2^32). -/
theorem eq_ofNat_iff (x : BitVec 32) (f : Fin 768) : x = BitVec.ofNat 32 f.val ↔ x.toNat = f.val := by
  have hf : f.val % 2 ^ 32 = f.val := Nat.mod_eq_of_lt (by have := f.isLt; omega)
  constructor
  · rintro rfl
    rw [BitVec.toNat_ofNat, hf]
  · intro h
    apply BitVec.eq_of_toNat_eq
    rw [BitVec.toNat_ofNat, hf, h]

/-- An indicator is zero or one, a real number. -/
theorem hot_isFin (x : BitVec 32) (f : Fin 768) : IsFin (hot x f) := by
  unfold hot
  split_ifs
  · exact IsFin.one
  · exact IsFin.zero

/-- For one word, the indicators' product with a table column is the entry the word picks. -/
theorem sum_hot_mul (W : Fin 768 → Fin 1024 → EReal) (x : BitVec 32) (h : Fin 1024) :
    ∑ f, hot x f * W f h = pick W x h := by
  unfold pick
  by_cases hx : x.toNat < 768
  · rw [if_pos hx, Finset.sum_eq_single (col x)]
    · have hc : (col x).val = x.toNat := Nat.mod_eq_of_lt hx
      have e : x = BitVec.ofNat 32 (col x).val := (eq_ofNat_iff x (col x)).2 hc.symm
      unfold hot
      rw [if_pos e, one_mul]
    · intro f _ hf
      have e : ¬ x = BitVec.ofNat 32 f.val := fun e =>
        hf (Fin.ext (((eq_ofNat_iff x f).1 e).symm.trans (Nat.mod_eq_of_lt hx).symm))
      unfold hot
      rw [if_neg e, zero_mul]
    · intro hn
      exact absurd (Finset.mem_univ _) hn
  · rw [if_neg hx]
    refine Finset.sum_eq_zero fun f _ => ?_
    have e : ¬ x = BitVec.ofNat 32 f.val := fun e =>
      hx (by rw [(eq_ofNat_iff x f).1 e]; exact f.isLt)
    unfold hot
    rw [if_neg e, zero_mul]

/-- (A) Counts and picks give the same accumulator when the table holds real numbers. -/
theorem accCount_eq_accPick (row : Fin 32 → BitVec 32) (W : Fin 768 → Fin 1024 → EReal) (bias : Fin 1024 → EReal)
    (hW : ∀ f h, IsFin (W f h)) (h : Fin 1024) : accCount row W bias h = accPick row W bias h := by
  unfold accCount accPick count
  rw [add_comm]
  congr 1
  have e : ∀ f, (∑ k, hot (row k) f) * W f h = ∑ k, hot (row k) f * W f h := by
    intro f
    rw [mul_comm, mul_sum_of_isFin Finset.univ (W f h) _ (hW f h) (fun k _ => hot_isFin _ _)]
    exact Finset.sum_congr rfl fun k _ => mul_comm _ _
  rw [Finset.sum_congr rfl (fun f _ => e f), Finset.sum_comm]
  exact Finset.sum_congr rfl fun k _ => sum_hot_mul W (row k) h

/-- The activation is a real number: it is the square of an extended real between zero and one. -/
theorem sq01_isFin (z : EReal) : IsFin (sq01 z) := by
  have hc : IsFin (min 1 (max 0 z)) := by
    have h1 : min 1 (max 0 z) ≤ 1 := min_le_left _ _
    have h0 : (0 : EReal) ≤ min 1 (max 0 z) := le_min zero_le_one (le_max_left _ _)
    refine ⟨(min 1 (max 0 z)).toReal, (EReal.coe_toReal ?_ ?_).symm⟩
    · exact ne_of_lt (lt_of_le_of_lt h1 (by rw [← EReal.coe_one]; exact EReal.coe_lt_top 1))
    · exact ne_of_gt (lt_of_lt_of_le (by rw [← EReal.coe_zero]; exact EReal.bot_lt_coe 0) h0)
  exact hc.mul hc

/-- A finite sum of coerced real numbers is the coerced sum. -/
theorem coe_sum {ι : Type} (s : Finset ι) (f : ι → ℝ) :
    ∑ i ∈ s, ((f i : ℝ) : EReal) = ((∑ i ∈ s, f i : ℝ) : EReal) := by
  classical
  refine Finset.induction_on s ?_ (fun a s ha ih => ?_)
  · rw [Finset.sum_empty, Finset.sum_empty, EReal.coe_zero]
  · rw [Finset.sum_insert ha, Finset.sum_insert ha, ih, EReal.coe_add]

/-- A sum over 2048 positions is the sum over its first 1024 plus the sum over its last 1024. -/
theorem sum_2048 (g : Fin 2048 → EReal) :
    ∑ j, g j = (∑ h : Fin 1024, g ⟨h.val, by omega⟩) + ∑ h : Fin 1024, g ⟨h.val + 1024, by omega⟩ := by
  have e := Fin.sum_univ_add (a := 1024) (b := 1024) (f := (g : Fin (1024 + 1024) → EReal))
  exact e

/-- Two vectors laid end to end read the first one in the first half and the second one in the second half. -/
theorem cat_first (u v : Fin 1024 → EReal) (h : Fin 1024) : cat u v ⟨h.val, by omega⟩ = u h := by
  unfold cat
  rw [dif_pos h.isLt]

theorem cat_second (u v : Fin 1024 → EReal) (h : Fin 1024) : cat u v ⟨h.val + 1024, by omega⟩ = v h := by
  unfold cat
  have hn : ¬ (h.val + 1024 < 1024) := by omega
  rw [dif_neg hn]
  exact congrArg v (Fin.ext (by show h.val + 1024 - 1024 = h.val; omega))

/-- (B) Four dot products blended afterwards are one dot product of the blended vectors, among real numbers. -/
theorem blend_eq_blendCat (wa ba : Fin 1024 → EReal) (m : EReal) (ow : Fin 2048 → EReal)
    (hwa : ∀ h, IsFin (wa h)) (hba : ∀ h, IsFin (ba h)) (hm : IsFin m) (how : ∀ j, IsFin (ow j)) :
    blend wa ba m (lo ow) (hi ow) = blendCat wa ba m ow := by
  choose a ha using hwa
  choose b hb using hba
  obtain ⟨μ, rfl⟩ := hm
  choose o ho using how
  obtain rfl : wa = fun h => ((a h : ℝ) : EReal) := funext ha
  obtain rfl : ba = fun h => ((b h : ℝ) : EReal) := funext hb
  obtain rfl : ow = fun j => ((o j : ℝ) : EReal) := funext ho
  unfold blend blendCat
  rw [sum_2048]
  simp only [cat_first, cat_second, lo, hi]
  rw [← EReal.coe_one]
  simp only [← EReal.coe_sub, ← EReal.coe_mul, ← EReal.coe_add, coe_sum]
  rw [EReal.coe_eq_coe_iff]
  simp only [mul_add, Finset.mul_sum, ← Finset.sum_add_distrib]
  exact Finset.sum_congr rfl fun h _ => by ring

/-- Counts with four dot products, and picks with one long dot product, are the same number. -/
theorem Gk_eq_Gr (wrow brow : Fin 32 → BitVec 32) (s : BitVec 32) (W : Fin 768 → Fin 1024 → EReal) (bias : Fin 1024 → EReal)
    (ow : Fin 2048 → EReal) (ob : EReal) (hW : ∀ f h, IsFin (W f h)) (how : ∀ j, IsFin (ow j)) :
    Gk wrow brow s W bias ow ob = Gr wrow brow s W bias ow ob := by
  unfold Gk Gr
  have ew : (fun h => sq01 (accCount wrow W bias h)) = fun h => sq01 (accPick wrow W bias h) :=
    funext fun h => by rw [accCount_eq_accPick wrow W bias hW h]
  have eb : (fun h => sq01 (accCount brow W bias h)) = fun h => sq01 (accPick brow W bias h) :=
    funext fun h => by rw [accCount_eq_accPick brow W bias hW h]
  have hs : IsFin (side s) := ⟨_, rfl⟩
  rw [ew, eb, blend_eq_blendCat (fun h => sq01 (accPick wrow W bias h)) (fun h => sq01 (accPick brow W bias h)) (side s) ow
    (fun h => sq01_isFin _) (fun h => sq01_isFin _) hs how]

end Cert.Nnue

end
-- ==== Proof.PreDecode.lean ====
/-
  What the precondition says of the argument arrays: every entry of the four float arrays is a real number (its
  absolute value is below +∞), and every word of the two feature arrays is below 768 as a signed number.
-/
import proofs.«429867_j52037823758706_3_alg».proof.Pre_finite_inputs
import proofs.«429867_j52037823758706_3_alg».proof.Proof.Gen.Pre_finite_inputs
import proofs.«429867_j52037823758706_3_alg».proof.Proof.LibExtReal
import Idealize.ShloMosaic.Lib.ValueIdx
import Idealize.ShloMosaic.Lib.ReduceAll
import Idealize.ShloMosaic.Lib.StableHlo.Predicate
import Idealize.ShloMosaic.PureOps.Ideal.Laws

noncomputable section

namespace Cert.Pre_finite_inputs.Hand

open Idealize.ShloMosaic Idealize.ShloMosaic.ValueIdx Cert.Pre_finite_inputs Cert.Pre_finite_inputs.Gen Cert.ExtReal

/-- The shape with no axes has one index. -/
local instance : Subsingleton S_.Idx := ⟨fun a b => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below +∞ is a real number: for x = ⊤ the maximum is ⊤,
    for x = ⊥ it is -⊥ = ⊤, and ⊤ < ⊤ is false. -/
theorem isFin_of_abs_lt (x : EReal)
    (h : Ideal.cmp .olt (max x (-x)) (Ideal.ofBits .f32 0x7F800000#32) = 1#1) : IsFin x := by
  rw [ofBits_inf] at h
  simp only [Ideal.cmp, StableHlo.Predicate.ofBool_eq_one_iff, decide_eq_true_eq] at h
  induction x using EReal.rec with
  | bot => simp at h
  | coe r => exact ⟨r, rfl⟩
  | top => simp at h

/-- A word that compares below 768 as a signed number has signed value below 768. -/
theorem toInt_lt_of_slt (w : BitVec 32) (h : IntOp.cmpi .slt w 768#32 = 1#1) : w.toInt < 768 := by
  simp only [IntOp.cmpi, StableHlo.Predicate.ofBool_eq_one_iff, BitVec.slt, decide_eq_true_eq] at h
  have h768 : (768#32 : BitVec 32).toInt = 768 := by decide
  omega

/-- The precondition, all ones, read entry by entry. -/
theorem decode (a0 a1 : IVec S8192x32 32) (a2 : IVec S8192 32) (a3 : FVec Ideal S768x1024 .f32) (a4 : FVec Ideal S1024 .f32)
    (a5 : FVec Ideal S2048 .f32) (a6 : FVec Ideal S1 .f32)
    (h : Cert.Pre_finite_inputs.fn (F := Ideal) a0 a1 a2 a3 a4 a5 a6 = fun _ => 1#1) :
    (∀ i, IsFin (a3 i)) ∧ (∀ i, IsFin (a4 i)) ∧ (∀ i, IsFin (a5 i)) ∧ (∀ i, IsFin (a6 i))
      ∧ (∀ (b : Fin 8192) (k : Fin 32), (a0 (ix2 b k)).toInt < 768)
      ∧ (∀ (b : Fin 8192) (k : Fin 32), (a1 (ix2 b k)).toInt < 768) := by
  -- the one entry of the result: a conjunction, by the word 'and', of six reductions by 'and' over all axes
  have h0 := congrFun h ValueIdx.ix0
  dsimp only [fn, fn_part1] at h0
  obtain ⟨h0, e1⟩ := IntOp.andi_eq_one.1 h0
  obtain ⟨h0, e0⟩ := IntOp.andi_eq_one.1 h0
  obtain ⟨h0, e6⟩ := IntOp.andi_eq_one.1 h0
  obtain ⟨h0, e5⟩ := IntOp.andi_eq_one.1 h0
  obtain ⟨e3, e4⟩ := IntOp.andi_eq_one.1 h0
  -- each reduction that is one had a one at every entry; the entry of a comparison against a broadcast scalar
  -- is the comparison of the array's entry with that scalar
  refine ⟨fun i => ?_, fun i => ?_, fun i => ?_, fun i => ?_, fun b k => ?_, fun b k => ?_⟩
  · exact isFin_of_abs_lt (a3 i) (Host.reduce_andi_all _ _ _ _ _ e3 i)
  · exact isFin_of_abs_lt (a4 i) (Host.reduce_andi_all _ _ _ _ _ e4 i)
  · exact isFin_of_abs_lt (a5 i) (Host.reduce_andi_all _ _ _ _ _ e5 i)
  · exact isFin_of_abs_lt (a6 i) (Host.reduce_andi_all _ _ _ _ _ e6 i)
  · exact toInt_lt_of_slt _ (Host.reduce_andi_all _ _ _ _ _ e0 (ix2 b k))
  · exact toInt_lt_of_slt _ (Host.reduce_andi_all _ _ _ _ _ e1 (ix2 b k))

end Cert.Pre_finite_inputs.Hand

end
-- ==== Proof.lean ====
/-
  The certificate's five claims for an NNUE evaluation kernel against its jnp reference.

  Both programs compute, for each of 8192 samples, the same network: a hidden accumulator (bias plus the weight-table rows
  named by the sample's 32 white, respectively black, feature words), clipped to [0, 1] and squared, then an output dot
  product in which the side to move decides which activation meets the "us" half and which the "them" half of the output
  weight, plus an output bias.  The kernel reaches the accumulator by COUNTING how often each table row is named and
  multiplying the counts with the table; the reference LOOKS each named row UP and masks the empty (negative) slots.  The
  kernel blends four finished dot products; the reference blends the activation vectors first and takes one dot product of
  length 2048.  Over the extended reals the two arrangements agree as soon as the table and the output weight hold real
  numbers (module Algebra), which the precondition provides; the precondition also keeps every feature word below the
  table's height, where the reference's lookup is defined (above it the lookup answers its not-a-number fill).

  * The kernel program's value: its generated frame run, the output blocks read entry by entry (KBody), assembled into the
    array and followed through the host's addition of the output bias (KArray).
  * The reference's value: its run to one composed term (RefTerm, RefRun), the term read sample by sample (RefRead).
  * The frames of the two kernel programs are the generated ones; the reference's frame is its run with the result dropped.
  * Nothing was rewritten by the idealization, so its soundness claim is trivial.
-/
import proofs.«429867_j52037823758706_3_alg».proof.Defs
import proofs.«429867_j52037823758706_3_alg».proof.Proof.Gen.Kernel
import proofs.«429867_j52037823758706_3_alg».proof.Proof.Gen.Kernel.Skeleton
import proofs.«429867_j52037823758706_3_alg».proof.Proof.Gen.Kernel.Launch
import proofs.«429867_j52037823758706_3_alg».proof.Proof.Gen.Kernel.Points
import proofs.«429867_j52037823758706_3_alg».proof.Proof.Gen.Kernel.Frame
import proofs.«429867_j52037823758706_3_alg».proof.Proof.Gen.KernelIdeal
import proofs.«429867_j52037823758706_3_alg».proof.Proof.Gen.KernelIdeal.Skeleton
import proofs.«429867_j52037823758706_3_alg».proof.Proof.Gen.KernelIdeal.Launch
import proofs.«429867_j52037823758706_3_alg».proof.Proof.Gen.KernelIdeal.Points
import proofs.«429867_j52037823758706_3_alg».proof.Proof.Gen.KernelIdeal.Frame
import proofs.«429867_j52037823758706_3_alg».proof.Proof.Gen.ReferenceIdeal
import proofs.«429867_j52037823758706_3_alg».proof.Proof.Gen.Pre_finite_inputs
import proofs.«429867_j52037823758706_3_alg».proof.Proof.KArray
import proofs.«429867_j52037823758706_3_alg».proof.Proof.RefRun
import proofs.«429867_j52037823758706_3_alg».proof.Proof.RefRead
import proofs.«429867_j52037823758706_3_alg».proof.Proof.Algebra
import proofs.«429867_j52037823758706_3_alg».proof.Proof.PreDecode
import Idealize.ShloMosaic.Adequacy
import Idealize.ShloMosaic.Init

noncomputable section

namespace Cert.Proof

open Idealize.ShloMosaic Idealize.ShloMosaic.TcCoe Idealize.SL.Sem

/-! ## The kernel program's run with its result named -/

section KernelValue

open Cert.KernelIdeal Cert.KernelIdeal.Gen Cert.Nnue

/-- Every weakly fair execution of the idealized kernel program terminates with its result at the network's output
    (counts, four dot products) of the argument arrays as launched, the argument arrays unchanged: the generated frame
    run, its result buffer read through the host lines after the region. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = GkArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (Cert.KernelIdeal.Hand.tail_value m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end KernelValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The two idealized programs end with the same result: the kernel's at the counts arrangement, the reference's at the
    picks arrangement (its feature words below 768 by the precondition), the two equal because the table and the output
    weight hold real numbers (the precondition again). -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6⟩ := hagree c
  rw [e0, e1, e2, e3, e4, e5, e6]
  obtain ⟨_, _, _, _, r0, r1⟩ := Cert.Pre_finite_inputs.Hand.decode _ _ _ _ _ _ _ (hpre c)
  obtain ⟨f3, _, f5, _, _, _⟩ := Cert.Pre_finite_inputs.Hand.decode _ _ _ _ _ _ _ (hpre c)
  rw [Cert.ReferenceIdeal.Hand.refOut_eq _ _ _ _ _ _ _ r0 r1]
  funext i
  exact (Cert.Nnue.Gk_eq_Gr _ _ _ _ _ _ _ (fun f h => f3 _) (fun j => f5 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
